-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S100000 : Shape := ⟨1, ![100000]⟩
abbrev S119 : Shape := ⟨1, ![119]⟩
abbrev S100000x64 : Shape := ⟨2, ![100000, 64]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S100000 : S_.BroadcastsInDim S100000 (![] : Fin 0 → Fin S100000.rank)
  reducesTo_S100000_S_d0 : S100000.ReducesTo [0] S_
  bcast_S_S119 : S_.BroadcastsInDim S119 (![] : Fin 0 → Fin S119.rank)
  reducesTo_S119_S_d0 : S119.ReducesTo [0] S_

variable [Facts]

def fn_part1 {F : FTy → Type} [FloatOps F] (main_v13 : IVec S_ 1) (main_v16 : IVec S119 1) : IVec S_ 1 :=
  let main_c_5 : IVec S_ 1 := constantI S_ 1 1#1
  let main_v17 : IVec S_ 1 := (fun x v => Host.reduce IntOp.andi x v reducesTo_S119_S_d0 h_S_) main_v16 main_c_5
  let main_v18 : IVec S_ 1 := andi main_v13 main_v17
  main_v18

def fn {F : FTy → Type} [FloatOps F] (main_arg0 : FVec F S100000x3 .f32) (main_arg1 : FVec F S100000 .f32) (main_arg2 : FVec F S100000 .f32) (main_arg3 : FVec F S119 .f32) (main_arg4 : IVec S100000x64 32) (main_arg5 : IVec S100000 32) (main_arg6 : IVec S100000x64 1) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S100000 .f32 := Host.absf main_arg1
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S100000 .f32 := Host.absf main_arg2
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S119 .f32 := Host.absf main_arg3
  let main_cst_4 : FVec F S_ .f32 := constant S_ .f32 0x7F800000#32
  let main_v15 : FVec F S119 .f32 := broadcastInDim S119 ![] bcast_S_S119 main_cst_4
  let main_v16 : IVec S119 1 := cmpf .olt main_v14 main_v15
  fn_part1 (F := F) main_v13 main_v16
-- ==== Kernel.lean ====
abbrev S100000x3 : Shape := ⟨2, ![100000, 3]⟩
abbrev S100000 : Shape := ⟨1, ![100000]⟩
abbrev S119 : Shape := ⟨1, ![119]⟩
abbrev S100000x64 : Shape := ⟨2, ![100000, 64]⟩
abbrev S100000x1 : Shape := ⟨2, ![100000, 1]⟩
abbrev S_ : Shape := ⟨0, ![]⟩
abbrev S100000x6 : Shape := ⟨2, ![100000, 6]⟩
abbrev S100000x64x1 : Shape := ⟨3, ![100000, 64, 1]⟩
abbrev S1x1 : Shape := ⟨2, ![1, 1]⟩
abbrev S2000x6 : Shape := ⟨2, ![2000, 6]⟩
abbrev S2000x64 : Shape := ⟨2, ![2000, 64]⟩
abbrev S2000x1 : Shape := ⟨2, ![2000, 1]⟩
abbrev S2000 : Shape := ⟨1, ![2000]⟩
abbrev S1 : Shape := ⟨1, ![1]⟩

abbrev nBuf : Space → Nat
  | .hbm => 88
  | .vmem => 17
  | .smem => 0
  | _ => 0

abbrev bufTy : (tb : Table) → Fin (tcTables nBuf tb) → BufTy
  | .hbm, ⟨0, _⟩ => ⟨S100000x3, .f32⟩
  | .hbm, ⟨1, _⟩ => ⟨S100000, .f32⟩
  | .hbm, ⟨2, _⟩ => ⟨S100000, .f32⟩
  | .hbm, ⟨3, _⟩ => ⟨S119, .f32⟩
  | .hbm, ⟨4, _⟩ => ⟨S100000x64, .i32⟩
  | .hbm, ⟨5, _⟩ => ⟨S100000, .i32⟩
  | .hbm, ⟨6, _⟩ => ⟨S100000x64, .i1⟩
  | .hbm, ⟨7, _⟩ => ⟨S100000x1, .f32⟩
  | .hbm, ⟨8, _⟩ => ⟨S100000, .f32⟩
  | .hbm, ⟨9, _⟩ => ⟨S100000x1, .f32⟩
  | .hbm, ⟨10, _⟩ => ⟨S100000, .f32⟩
  | .hbm, ⟨11, _⟩ => ⟨S100000x1, .f32⟩
  | .hbm, ⟨12, _⟩ => ⟨S100000, .f32⟩
  | .hbm, ⟨13, _⟩ => ⟨S_, .i32⟩
  | .hbm, ⟨14, _⟩ => ⟨S100000, .i32⟩
  | .hbm, ⟨15, _⟩ => ⟨S100000, .i1⟩
  | .hbm, ⟨16, _⟩ => ⟨S_, .i32⟩
  | .hbm, ⟨17, _⟩ => ⟨S100000, .i32⟩
  | .hbm, ⟨18, _⟩ => ⟨S100000, .i32⟩
  | .hbm, ⟨19, _⟩ => ⟨S100000, .i32⟩
  | .hbm, ⟨20, _⟩ => ⟨S100000x1, .i32⟩
  | .hbm, ⟨21, _⟩ => ⟨S100000, .f32⟩
  | .hbm, ⟨22, _⟩ => ⟨S100000x1, .f32⟩
  | .hbm, ⟨23, _⟩ => ⟨S100000x1, .f32⟩
  | .hbm, ⟨24, _⟩ => ⟨S100000x1, .f32⟩
  | .hbm, ⟨25, _⟩ => ⟨S100000x1, .f32⟩
  | .hbm, ⟨26, _⟩ => ⟨S100000x1, .f32⟩
  | .hbm, ⟨27, _⟩ => ⟨S100000x1, .f32⟩
  | .hbm, ⟨28, _⟩ => ⟨S100000x6, .f32⟩
  | .hbm, ⟨29, _⟩ => ⟨S_, .i32⟩
  | .hbm, ⟨30, _⟩ => ⟨S100000x64, .i32⟩
  | .hbm, ⟨31, _⟩ => ⟨S100000x64, .i1⟩
  | .hbm, ⟨32, _⟩ => ⟨S_, .i32⟩
  | .hbm, ⟨33, _⟩ => ⟨S100000x64, .i32⟩
  | .hbm, ⟨34, _⟩ => ⟨S100000x64, .i32⟩
  | .hbm, ⟨35, _⟩ => ⟨S100000x64, .i32⟩
  | .hbm, ⟨36, _⟩ => ⟨S100000x64x1, .i32⟩
  | .hbm, ⟨37, _⟩ => ⟨S100000x64, .f32⟩
  | .hbm, ⟨38, _⟩ => ⟨S_, .i32⟩
  | .hbm, ⟨39, _⟩ => ⟨S100000x64, .i32⟩
  | .hbm, ⟨40, _⟩ => ⟨S100000x64, .i1⟩
  | .hbm, ⟨41, _⟩ => ⟨S_, .i32⟩
  | .hbm, ⟨42, _⟩ => ⟨S100000x64, .i32⟩
  | .hbm, ⟨43, _⟩ => ⟨S100000x64, .i32⟩
  | .hbm, ⟨44, _⟩ => ⟨S100000x64, .i32⟩
  | .hbm, ⟨45, _⟩ => ⟨S100000x64x1, .i32⟩
  | .hbm, ⟨46, _⟩ => ⟨S100000x64, .f32⟩
  | .hbm, ⟨47, _⟩ => ⟨S_, .i32⟩
  | .hbm, ⟨48, _⟩ => ⟨S100000x64, .i32⟩
  | .hbm, ⟨49, _⟩ => ⟨S100000x64, .i1⟩
  | .hbm, ⟨50, _⟩ => ⟨S_, .i32⟩
  | .hbm, ⟨51, _⟩ => ⟨S100000x64, .i32⟩
  | .hbm, ⟨52, _⟩ => ⟨S100000x64, .i32⟩
  | .hbm, ⟨53, _⟩ => ⟨S100000x64, .i32⟩
  | .hbm, ⟨54, _⟩ => ⟨S100000x64x1, .i32⟩
  | .hbm, ⟨55, _⟩ => ⟨S100000x64, .f32⟩
  | .hbm, ⟨56, _⟩ => ⟨S_, .i32⟩
  | .hbm, ⟨57, _⟩ => ⟨S100000x64, .i32⟩
  | .hbm, ⟨58, _⟩ => ⟨S100000x64, .i1⟩
  | .hbm, ⟨59, _⟩ => ⟨S_, .i32⟩
  | .hbm, ⟨60, _⟩ => ⟨S100000x64, .i32⟩
  | .hbm, ⟨61, _⟩ => ⟨S100000x64, .i32⟩
  | .hbm, ⟨62, _⟩ => ⟨S100000x64, .i32⟩
  | .hbm, ⟨63, _⟩ => ⟨S100000x64x1, .i32⟩
  | .hbm, ⟨64, _⟩ => ⟨S100000x64, .f32⟩
  | .hbm, ⟨65, _⟩ => ⟨S_, .i32⟩
  | .hbm, ⟨66, _⟩ => ⟨S100000x64, .i32⟩
  | .hbm, ⟨67, _⟩ => ⟨S100000x64, .i1⟩
  | .hbm, ⟨68, _⟩ => ⟨S_, .i32⟩
  | .hbm, ⟨69, _⟩ => ⟨S100000x64, .i32⟩
  | .hbm, ⟨70, _⟩ => ⟨S100000x64, .i32⟩
  | .hbm, ⟨71, _⟩ => ⟨S100000x64, .i32⟩
  | .hbm, ⟨72, _⟩ => ⟨S100000x64x1, .i32⟩
  | .hbm, ⟨73, _⟩ => ⟨S100000x64, .f32⟩
  | .hbm, ⟨74, _⟩ => ⟨S_, .i32⟩
  | .hbm, ⟨75, _⟩ => ⟨S100000x64, .i32⟩
  | .hbm, ⟨76, _⟩ => ⟨S100000x64, .i1⟩
  | .hbm, ⟨77, _⟩ => ⟨S_, .i32⟩
  | .hbm, ⟨78, _⟩ => ⟨S100000x64, .i32⟩
  | .hbm, ⟨79, _⟩ => ⟨S100000x64, .i32⟩
  | .hbm, ⟨80, _⟩ => ⟨S100000x64, .i32⟩
  | .hbm, ⟨81, _⟩ => ⟨S100000x64x1, .i32⟩
  | .hbm, ⟨82, _⟩ => ⟨S100000x64, .f32⟩
  | .hbm, ⟨83, _⟩ => ⟨S100000x64, .i32⟩
  | .hbm, ⟨84, _⟩ => ⟨S1x1, .f32⟩
  | .hbm, ⟨85, _⟩ => ⟨S_, .f32⟩
  | .hbm, ⟨86, _⟩ => ⟨S_, .f32⟩
  | .hbm, ⟨87, _⟩ => ⟨S_, .f32⟩
  | .local _ .vmem, ⟨0, _⟩ => ⟨S2000x6, .f32⟩
  | .local _ .vmem, ⟨1, _⟩ => ⟨S2000x6, .f32⟩
  | .local _ .vmem, ⟨2, _⟩ => ⟨S2000x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x64, .i32⟩
  | .local _ .vmem, ⟨15, _⟩ => ⟨S2000x64, .i32⟩
  | .local _ .vmem, ⟨16, _⟩ => ⟨S1x1, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_1 : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_3 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_5 : Ref sig .tc := ⟨.hbm, 47, rfl⟩
abbrev main_v34 : Ref sig .tc := ⟨.hbm, 48, rfl⟩
abbrev main_v35 : Ref sig .tc := ⟨.hbm, 49, rfl⟩
abbrev main_c_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_7 : Ref sig .tc := ⟨.hbm, 56, rfl⟩
abbrev main_v41 : Ref sig .tc := ⟨.hbm, 57, rfl⟩
abbrev main_v42 : Ref sig .tc := ⟨.hbm, 58, rfl⟩
abbrev main_c_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_c_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_11 : Ref sig .tc := ⟨.hbm, 74, rfl⟩
abbrev main_v55 : Ref sig .tc := ⟨.hbm, 75, rfl⟩
abbrev main_v56 : Ref sig .tc := ⟨.hbm, 76, rfl⟩
abbrev main_c_12 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst : Ref sig .tc := ⟨.hbm, 86, rfl⟩
abbrev main_v65 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x64 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

class Facts₀ : Prop where
  slices_S100000x3_S100000x1_0_0 : S100000x3.Slices ![0, 0] S100000x1
  shapeCasts_S100000x1_S100000 : S100000x1.ShapeCasts S100000
  slices_S100000x3_S100000x1_0_1 : S100000x3.Slices ![0, 1] S100000x1
  slices_S100000x3_S100000x1_0_2 : S100000x3.Slices ![0, 2] S100000x1
  bcast_S_S100000 : S_.BroadcastsInDim S100000 (![] : Fin 0 → Fin S100000.rank)
  bcast_S100000_S100000x1_0 : S100000.BroadcastsInDim S100000x1 (![0] : Fin 1 → Fin S100000x1.rank)
  concatenates_S100000x1_S100000x1_S100000x1_S100000x1_S100000x1_S100000x1_S100000x6_d1 : Shape.Concatenates [S100000x1, S100000x1, S100000x1, S100000x1, S100000x1, S100000x1] S100000x6 1
  bcast_S_S100000x64 : S_.BroadcastsInDim S100000x64 (![] : Fin 0 → Fin S100000x64.rank)
  bcast_S100000x64_S100000x64x1_0_1 : S100000x64.BroadcastsInDim S100000x64x1 (![0, 1] : Fin 2 → Fin S100000x64x1.rank)
  natLt_1_32 : 1 < 32
  inb_S1x1_S1x1_0_0 : ∀ a, (![0, 0] : Fin 2 → Nat) a + S1x1.size a ≤ S1x1.size a
  h_S1x1 : 0 < S1x1.numel
  inb_S2000x6_S2000x6_0_0 : ∀ a, (![0, 0] : Fin 2 → Nat) a + S2000x6.size a ≤ S2000x6.size a
  h_S2000x6 : 0 < S2000x6.numel
  shapeCasts_S2000x6_S2000x6 : S2000x6.ShapeCasts S2000x6
  slices_S2000x6_o0_0_S2000x1 : S2000x6.Slices ![0, 0] S2000x1
  slices_S2000x6_o0_1_S2000x1 : S2000x6.Slices ![0, 1] S2000x1
  slices_S2000x6_o0_2_S2000x1 : S2000x6.Slices ![0, 2] S2000x1
  slices_S2000x6_o0_3_S2000x1 : S2000x6.Slices ![0, 3] S2000x1
  slices_S2000x6_o0_4_S2000x1 : S2000x6.Slices ![0, 4] S2000x1
  slices_S2000x6_o0_5_S2000x1 : S2000x6.Slices ![0, 5] S2000x1
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  broadcasts_S2000x1_S2000x64 : S2000x1.Broadcasts S2000x64
  reduces_S2000x64_S2000 : S2000x64.Reduces [1] S2000
  shapeCasts_S2000_S2000x1 : S2000.ShapeCasts S2000x1
  reduces_S2000x1_S1 : S2000x1.Reduces [0] S1
  shapeCasts_S1_S1x1 : S1.ShapeCasts S1x1
  shapeCasts_S1x1_S1x1 : S1x1.ShapeCasts S1x1
  shapeCasts_S1x1_S_ : S1x1.ShapeCasts S_
  gather_S119_S100000x1_S100000_n_0_n_n_0_1_1_wf : GatherDims.WF S119 S100000x1 S100000 [] [0] [] [0] [] 1 ![1]
  gather_S100000_S100000x64x1_S100000x64_n_0_n_n_0_2_1_wf : GatherDims.WF S100000 S100000x64x1 S100000x64 [] [0] [] [0] [] 2 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x6.size a ≤ S100000x6.size a
  hwx0_0 : ∀ i : grid0.Coords, EltTy.bits .f32 = 32 ∨ (Rect.block (s := S100000x6) S2000x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x64.size a ≤ S100000x64.size a
  hwx0_4 : ∀ i : grid0.Coords, EltTy.bits .f32 = 32 ∨ (Rect.block (s := S100000x64) S2000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S100000x64.size a
  hwx0_5 : ∀ i : grid0.Coords, EltTy.bits .f32 = 32 ∨ (Rect.block (s := S100000x64) S2000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S100000x64.size a
  hwx0_6 : ∀ i : grid0.Coords, EltTy.bits .f32 = 32 ∨ (Rect.block (s := S100000x64) S2000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x64.size a ≤ S100000x64.size a
  hwx0_7 : ∀ i : grid0.Coords, EltTy.bits .i32 = 32 ∨ (Rect.block (s := S100000x64) S2000x64.size (cc0_transform_7 i) (hinb0_7 i)).WholeWords (EltTy.packing .i32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)

variable [Facts₀]

def gather_S119_S100000x1_S100000_n_0_n_n_0_1_1 : GatherDims S119 S100000x1 S100000 where
  offsetDims := []
  collapsedSliceDims := [0]
  operandBatchingDims := []
  startIndicesBatchingDims := []
  startIndexMap := [0]
  indexVectorDim := 1
  sliceSizes := ![1]
  wf := gather_S119_S100000x1_S100000_n_0_n_n_0_1_1_wf
def gather_S100000_S100000x64x1_S100000x64_n_0_n_n_0_2_1 : GatherDims S100000 S100000x64x1 S100000x64 where
  offsetDims := []
  collapsedSliceDims := [0]
  operandBatchingDims := []
  startIndicesBatchingDims := []
  startIndexMap := [0]
  indexVectorDim := 2
  sliceSizes := ![1]
  wf := gather_S100000_S100000x64x1_S100000x64_n_0_n_n_0_2_1_wf

abbrev win0_0 : Pipeline.Window sig grid0 :=
  Pipeline.Window.ofSpec (Memref.whole main_v19) S2000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40) S2000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v47) S2000x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v54) S2000x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v61) S2000x64.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v62) S2000x64.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v63) S1x1.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x3 : Shape := ⟨2, ![100000, 3]⟩
abbrev S100000 : Shape := ⟨1, ![100000]⟩
abbrev S119 : Shape := ⟨1, ![119]⟩
abbrev S100000x64 : Shape := ⟨2, ![100000, 64]⟩
abbrev S_ : Shape := ⟨0, ![]⟩
abbrev S100000x64x1 : Shape := ⟨3, ![100000, 64, 1]⟩
abbrev S100000x64x3 : Shape := ⟨3, ![100000, 64, 3]⟩
abbrev S100000x1x3 : Shape := ⟨3, ![100000, 1, 3]⟩
abbrev S100000x1 : Shape := ⟨2, ![100000, 1]⟩

abbrev nBuf : Space → Nat
  | .hbm => 134
  | .vmem => 0
  | .smem => 0
  | _ => 0

abbrev hbmTy0_0 (i : Nat) : BufTy := match i % 128 with
  | 0 => ⟨S100000x3, .f32⟩
  | 1 => ⟨S100000, .f32⟩
  | 2 => ⟨S100000, .f32⟩
  | 3 => ⟨S119, .f32⟩
  | 4 => ⟨S100000x64, .i32⟩
  | 5 => ⟨S100000, .i32⟩
  | 6 => ⟨S100000x64, .i1⟩
  | 7 => ⟨S_, .i32⟩
  | 8 => ⟨S100000x64, .i32⟩
  | 9 => ⟨S100000x64, .i1⟩
  | 10 => ⟨S_, .i32⟩
  | 11 => ⟨S100000x64, .i32⟩
  | 12 => ⟨S100000x64, .i32⟩
  | 13 => ⟨S100000x64, .i32⟩
  | 14 => ⟨S100000x64x1, .i32⟩
  | 15 => ⟨S100000x64x3, .f32⟩
  | 16 => ⟨S100000x1x3, .f32⟩
  | 17 => ⟨S100000x64x3, .f32⟩
  | 18 => ⟨S100000x64x3, .f32⟩
  | 19 => ⟨S100000x64x3, .f32⟩
  | 20 => ⟨S_, .f32⟩
  | 21 => ⟨S100000x64, .f32⟩
  | 22 => ⟨S_, .f32⟩
  | 23 => ⟨S_, .f32⟩
  | 24 => ⟨S100000x64, .f32⟩
  | 25 => ⟨S100000x64, .f32⟩
  | 26 => ⟨S100000x64, .f32⟩
  | 27 => ⟨S_, .f32⟩
  | 28 => ⟨S100000x64, .f32⟩
  | 29 => ⟨S100000x64, .f32⟩
  | 30 => ⟨S100000x1, .f32⟩
  | 31 => ⟨S_, .i32⟩
  | 32 => ⟨S100000x64, .i32⟩
  | 33 => ⟨S100000x64, .i1⟩
  | 34 => ⟨S_, .i32⟩
  | 35 => ⟨S100000x64, .i32⟩
  | 36 => ⟨S100000x64, .i32⟩
  | 37 => ⟨S100000x64, .i32⟩
  | 38 => ⟨S100000x64x1, .i32⟩
  | 39 => ⟨S100000x64, .f32⟩
  | 40 => ⟨S_, .f32⟩
  | 41 => ⟨S_, .f32⟩
  | 42 => ⟨S100000, .f32⟩
  | 43 => ⟨S100000, .f32⟩
  | 44 => ⟨S100000x1, .f32⟩
  | 45 => ⟨S_, .i32⟩
  | 46 => ⟨S100000x64, .i32⟩
  | 47 => ⟨S100000x64, .i1⟩
  | 48 => ⟨S_, .i32⟩
  | 49 => ⟨S100000x64, .i32⟩
  | 50 => ⟨S100000x64, .i32⟩
  | 51 => ⟨S100000x64, .i32⟩
  | 52 => ⟨S100000x64x1, .i32⟩
  | 53 => ⟨S100000x64, .f32⟩
  | 54 => ⟨S_, .f32⟩
  | 55 => ⟨S_, .f32⟩
  | 56 => ⟨S100000x64, .f32⟩
  | 57 => ⟨S100000x64, .f32⟩
  | 58 => ⟨S_, .f32⟩
  | 59 => ⟨S100000x1, .f32⟩
  | 60 => ⟨S100000x1, .f32⟩
  | 61 => ⟨S100000x64, .f32⟩
  | 62 => ⟨S100000x64, .f32⟩
  | 63 => ⟨S100000x64, .f32⟩
  | 64 => ⟨S100000x64, .f32⟩
  | 65 => ⟨S100000x64, .f32⟩
  | 66 => ⟨S100000x64, .f32⟩
  | 67 => ⟨S100000x64, .f32⟩
  | 68 => ⟨S100000x64, .f32⟩
  | 69 => ⟨S100000x64, .f32⟩
  | 70 => ⟨S100000x64, .f32⟩
  | 71 => ⟨S_, .f32⟩
  | 72 => ⟨S_, .f32⟩
  | 73 => ⟨S100000x64, .f32⟩
  | 74 => ⟨S100000x64, .f32⟩
  | 75 => ⟨S100000x64, .f32⟩
  | 76 => ⟨S_, .i32⟩
  | 77 => ⟨S100000, .i32⟩
  | 78 => ⟨S100000, .i1⟩
  | 79 => ⟨S_, .i32⟩
  | 80 => ⟨S100000, .i32⟩
  | 81 => ⟨S100000, .i32⟩
  | 82 => ⟨S100000, .i32⟩
  | 83 => ⟨S100000x1, .i32⟩
  | 84 => ⟨S100000, .f32⟩
  | 85 => ⟨S100000x1, .f32⟩
  | 86 => ⟨S_, .f32⟩
  | 87 => ⟨S100000x1, .f32⟩
  | 88 => ⟨S100000x1, .f32⟩
  | 89 => ⟨S_, .i32⟩
  | 90 => ⟨S100000x64, .i32⟩
  | 91 => ⟨S100000x64, .i1⟩
  | 92 => ⟨S_, .i32⟩
  | 93 => ⟨S100000x64, .i32⟩
  | 94 => ⟨S100000x64, .i32⟩
  | 95 => ⟨S100000x64, .i32⟩
  | 96 => ⟨S100000x64x1, .i32⟩
  | 97 => ⟨S100000x64, .f32⟩
  | 98 => ⟨S100000x64, .f32⟩
  | 99 => ⟨S100000x64, .f32⟩
  | 100 => ⟨S100000x64, .f32⟩
  | 101 => ⟨S_, .f32⟩
  | 102 => ⟨S100000x64, .f32⟩
  | 103 => ⟨S100000x64, .f32⟩
  | 104 => ⟨S_, .f32⟩
  | 105 => ⟨S100000x64, .f32⟩
  | 106 => ⟨S100000x64, .f32⟩
  | 107 => ⟨S100000x64, .f32⟩
  | 108 => ⟨S100000x64, .f32⟩
  | 109 => ⟨S100000x64, .f32⟩
  | 110 => ⟨S100000x64, .f32⟩
  | 111 => ⟨S100000x64, .f32⟩
  | 112 => ⟨S100000x64, .f32⟩
  | 113 => ⟨S100000x64, .f32⟩
  | 114 => ⟨S100000x64, .f32⟩
  | 115 => ⟨S100000x64, .f32⟩
  | 116 => ⟨S100000x64, .f32⟩
  | 117 => ⟨S100000x64, .f32⟩
  | 118 => ⟨S100000x64, .f32⟩
  | 119 => ⟨S100000x64, .f32⟩
  | 120 => ⟨S_, .f32⟩
  | 121 => ⟨S100000x64, .f32⟩
  | 122 => ⟨S100000x64, .f32⟩
  | 123 => ⟨S_, .f32⟩
  | 124 => ⟨S100000x64, .f32⟩
  | 125 => ⟨S100000x64, .f32⟩
  | 126 => ⟨S100000x64, .f32⟩
  | 127 => ⟨S100000x64, .f32⟩
  | _ => ⟨S100000x3, .f32⟩

abbrev hbmTy0_1 (i : Nat) : BufTy := match i % 128 with
  | 0 => ⟨S100000x64, .f32⟩
  | 1 => ⟨S100000x64, .f32⟩
  | 2 => ⟨S_, .f32⟩
  | 3 => ⟨S_, .f32⟩
  | 4 => ⟨S_, .f32⟩
  | 5 => ⟨S_, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_call1_v0 : Ref sig .tc := ⟨.hbm, 41, rfl⟩
abbrev main_call1_v1 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_c_7 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_8 : Ref sig .tc := ⟨.hbm, 54, rfl⟩
abbrev main_call2_v0 : Ref sig .tc := ⟨.hbm, 55, rfl⟩
abbrev main_call2_v1 : Ref sig .tc := ⟨.hbm, 56, rfl⟩
abbrev main_v33 : Ref sig .tc := ⟨.hbm, 57, rfl⟩
abbrev main_cst_9 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_call3_v0 : Ref sig .tc := ⟨.hbm, 72, rfl⟩
abbrev main_call3_v1 : Ref sig .tc := ⟨.hbm, 73, rfl⟩
abbrev main_v46 : Ref sig .tc := ⟨.hbm, 74, rfl⟩
abbrev main_v47 : Ref sig .tc := ⟨.hbm, 75, rfl⟩
abbrev main_c_11 : Ref sig .tc := ⟨.hbm, 76, rfl⟩
abbrev main_v48 : Ref sig .tc := ⟨.hbm, 77, rfl⟩
abbrev main_v49 : Ref sig .tc := ⟨.hbm, 78, rfl⟩
abbrev main_c_12 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_13 : Ref sig .tc := ⟨.hbm, 86, rfl⟩
abbrev main_v56 : Ref sig .tc := ⟨.hbm, 87, rfl⟩
abbrev main_v57 : Ref sig .tc := ⟨.hbm, 88, rfl⟩
abbrev main_c_14 : Ref sig .tc := ⟨.hbm, 89, rfl⟩
abbrev main_v58 : Ref sig .tc := ⟨.hbm, 90, rfl⟩
abbrev main_v59 : Ref sig .tc := ⟨.hbm, 91, rfl⟩
abbrev main_c_15 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_16 : Ref sig .tc := ⟨.hbm, 101, rfl⟩
abbrev main_v68 : Ref sig .tc := ⟨.hbm, 102, rfl⟩
abbrev main_v69 : Ref sig .tc := ⟨.hbm, 103, rfl⟩
abbrev main_cst_17 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_18 : Ref sig .tc := ⟨.hbm, 120, rfl⟩
abbrev main_v85 : Ref sig .tc := ⟨.hbm, 121, rfl⟩
abbrev main_v86 : Ref sig .tc := ⟨.hbm, 122, rfl⟩
abbrev main_cst_19 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_20 : Ref sig .tc := ⟨.hbm, 130, rfl⟩
abbrev main_v93 : Ref sig .tc := ⟨.hbm, 131, rfl⟩
abbrev main_cst_21 : Ref sig .tc := ⟨.hbm, 132, rfl⟩
abbrev main_v94 : Ref sig .tc := ⟨.hbm, 133, rfl⟩

abbrev nD : Nat := 1
abbrev τ : Topo := Topo.v7x

variable {F : FTy → Type} [FloatOps F]

class Facts₀ : Prop where
  bcast_S_S100000x64 : S_.BroadcastsInDim S100000x64 (![] : Fin 0 → Fin S100000x64.rank)
  bcast_S100000x64_S100000x64x1_0_1 : S100000x64.BroadcastsInDim S100000x64x1 (![0, 1] : Fin 2 → Fin S100000x64x1.rank)
  bcast_S100000x3_S100000x1x3_0_2 : S100000x3.BroadcastsInDim S100000x1x3 (![0, 2] : Fin 2 → Fin S100000x1x3.rank)
  bcast_S100000x1x3_S100000x64x3_0_1_2 : S100000x1x3.BroadcastsInDim S100000x64x3 (![0, 1, 2] : Fin 3 → Fin S100000x64x3.rank)
  reducesTo_S100000x64x3_S100000x64_d2 : S100000x64x3.ReducesTo [2] S100000x64
  h_S_ : 0 < S_.numel
  bcast_S100000_S100000x1_0 : S100000.BroadcastsInDim S100000x1 (![0] : Fin 1 → Fin S100000x1.rank)
  bcast_S_S100000 : S_.BroadcastsInDim S100000 (![] : Fin 0 → Fin S100000.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  reducesTo_S100000x64_S_d0_1 : S100000x64.ReducesTo [0, 1] S_
  gather_S100000x3_S100000x64x1_S100000x64x3_2_0_n_n_0_2_13_wf : GatherDims.WF S100000x3 S100000x64x1 S100000x64x3 [2] [0] [] [0] [] 2 ![1, 3]
  gather_S100000_S100000x64x1_S100000x64_n_0_n_n_0_2_1_wf : GatherDims.WF S100000 S100000x64x1 S100000x64 [] [0] [] [0] [] 2 ![1]
  gather_S119_S100000x1_S100000_n_0_n_n_0_1_1_wf : GatherDims.WF S119 S100000x1 S100000 [] [0] [] [0] [] 1 ![1]

variable [Facts₀]

def gather_S100000x3_S100000x64x1_S100000x64x3_2_0_n_n_0_2_13 : GatherDims S100000x3 S100000x64x1 S100000x64x3 where
  offsetDims := [2]
  collapsedSliceDims := [0]
  operandBatchingDims := []
  startIndicesBatchingDims := []
  startIndexMap := [0]
  indexVectorDim := 2
  sliceSizes := ![1, 3]
  wf := gather_S100000x3_S100000x64x1_S100000x64x3_2_0_n_n_0_2_13_wf
def gather_S100000_S100000x64x1_S100000x64_n_0_n_n_0_2_1 : GatherDims S100000 S100000x64x1 S100000x64 where
  offsetDims := []
  collapsedSliceDims := [0]
  operandBatchingDims := []
  startIndicesBatchingDims := []
  startIndexMap := [0]
  indexVectorDim := 2
  sliceSizes := ![1]
  wf := gather_S100000_S100000x64x1_S100000x64_n_0_n_n_0_2_1_wf
def gather_S119_S100000x1_S100000_n_0_n_n_0_1_1 : GatherDims S119 S100000x1 S100000 where
  offsetDims := []
  collapsedSliceDims := [0]
  operandBatchingDims := []
  startIndicesBatchingDims := []
  startIndexMap := [0]
  indexVectorDim := 1
  sliceSizes := ![1]
  wf := gather_S119_S100000x1_S100000_n_0_n_n_0_1_1_wf

class Facts : Prop extends Facts₀ where

variable [Facts]
-- ==== Proof.KernelShared.lean ====
/-
  The launch side of the energy kernel's termination-and-no-fault argument, shared by the two control cases of its body:
  the memory as the region finds it (the host lines before the call applied to the launch memory), @main as
  "host lines, the region, host lines", the fact that none of those host lines writes an argument array, the block
  of each operand at a grid point, and the branch condition "this is the first grid point" in closed form.
-/
import proofs.«147298_j47991964566172_1_alg».proof.Proof.Gen.Kernel.Launch
import proofs.«147298_j47991964566172_1_alg».proof.Proof.Gen.Kernel.Skeleton
import proofs.«147298_j47991964566172_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The contents of core `c`'s buffers when the region is entered: the 77 host lines before the call applied to the launch memory. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

set_option maxHeartbeats 4000000 in
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the call, the region, and the three host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch only unscoped TensorCore buffers, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write none of the nine arrays the call stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## No host line writes an argument array -/

set_option maxHeartbeats 4000000 in
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 4000000 in
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 4000000 in
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

set_option maxHeartbeats 4000000 in
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

set_option maxHeartbeats 4000000 in
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

set_option maxHeartbeats 4000000 in
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

set_option maxHeartbeats 4000000 in
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-! ## The operands' blocks -/

/-- Operand `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input operand 0 is fetched at every point and the body leaves it alone, so its staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input operand 1 is fetched at every point and the body leaves it alone, so its staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input operand 2 is fetched at every point and the body leaves it alone, so its staging buffer holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input operand 3 is fetched at every point and the body leaves it alone, so its staging buffer holds its block at every point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input operand 4 is fetched at every point and the body leaves it alone, so its staging buffer holds its block at every point. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input operand 5 is fetched at every point and the body leaves it alone, so its staging buffer holds its block at every point. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input operand 6 is fetched at every point and the body leaves it alone, so its staging buffer holds its block at every point. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input operand 7 is fetched at every point and the body leaves it alone, so its staging buffer holds its block at every point. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- The seven argument arrays are staged by no window and written by no host line, so a run that ends with every
    unstaged buffer as the host tail leaves it ends with the arguments as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c)),
    (((h c).2 main_arg4 (Pipeline.mem_restRefs_of main_arg4 (by decide) (by decide))).trans (W_main_arg4 m dats c)),
    (((h c).2 main_arg5 (Pipeline.mem_restRefs_of main_arg5 (by decide) (by decide))).trans (W_main_arg5 m dats c)),
    (((h c).2 main_arg6 (Pipeline.mem_restRefs_of main_arg6 (by decide) (by decide))).trans (W_main_arg6 m dats c))⟩) h

/-! ## The body's branch condition -/

/-- The condition of the body's one `scf.if`: the grid coordinate is zero. -/
abbrev cond0_0 (i : grid0.Coords) : Prop := (Scalar.cmpi .ne (Scalar.extui (Scalar.cmpi .eq (BitVec.ofNat 32 (i 0).val) 0#32)) 0#32) = 1#1
/-- It holds at the first of the 50 points only. -/
theorem hcond0_0 : ∀ t : Fin cfg0.N, cond0_0 (grid0.coords t) ↔ t.val % 50 = 0 :=
  (by decide +kernel : ∀ t : Fin grid0.N, cond0_0 (grid0.coords t) ↔ t.val % 50 = 0)

/-! ## The staging memrefs the pipeline passes the body -/

/-- The one staging buffer of the output window, through which its contents are stated. -/
abbrev VO0_8 : View sig .tc .vmem S1x1 .f32 := (Memref.whole cc0_stg8_0 : Memref sig .tc .vmem S1x1 .f32).view
abbrev ms0_0 (t : Fin cfg0.N) : Memref sig .tc .vmem S2000x6 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2000x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2000x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2000x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2000x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2000x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2000x64 .i32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1 .f32 := win0_8.stage (cfg0.slots t 8)
abbrev hs0_8 (t : Fin cfg0.N) : (ms0_8 t).IsWhole := hstage0_8 ((cfg0.slots t 8).cast nbuf0_8)

end Cert.Kernel.Hand

end
-- ==== Proof.KernelRunA.lean ====
/-
  The energy kernel's body run once, symbolically, in the control case "first grid point".
  At the first grid point the body zeroes the 1×1 accumulator, reads its eight input blocks, computes the block's pair energies, sums them to one number and adds it to the accumulator it has just zeroed.
  The run shows that on whole staging buffers — the inputs at their contents, the accumulator at anything — the body
  terminates without a fault, hands the inputs back unchanged and leaves the accumulator written by the stores the run lists.
-/
import proofs.«147298_j47991964566172_1_alg».proof.Proof.KernelShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body makes into the accumulator's buffer in this case (last first), with the run that makes them. -/
noncomputable def kernelRun0_A (c : Dev nD) (i : grid0.Coords) (arg1 : Memref sig .tc .vmem S2000x6 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S2000x64 .f32) (harg6 : arg6.IsWhole) (arg7 : Memref sig .tc .vmem S2000x64 .f32) (harg7 : arg7.IsWhole) (arg8 : Memref sig .tc .vmem S2000x64 .i32) (harg8 : arg8.IsWhole) (arg9 : Memref sig .tc .vmem S1x1 .f32) (harg9 : arg9.IsWhole) (hc0 : cond0_0 i)
    (x0 : Vec F S2000x6 .f32) (x1 : Vec F S2000x64 .f32) (x2 : Vec F S2000x64 .f32) (x3 : Vec F S2000x64 .f32) (x4 : Vec F S2000x64 .f32) (x5 : Vec F S2000x64 .f32) (x6 : Vec F S2000x64 .f32) (x7 : Vec F S2000x64 .i32) :
    { L8 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8)) -∗ K ⟨⟩))
          ⊢ wp frame (wpE (defs₀ (F := F)) Variants.none c none) E (cc0__kernel i arg1 harg1 arg2 harg2 arg3 harg3 arg4 harg4 arg5 harg5 arg6 harg6 arg7 harg7 arg8 harg8 arg9 harg9) K } := by
  refine ⟨?_, fun E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact H8

end Cert.Kernel.Hand

end
-- ==== Proof.KernelRunB.lean ====
/-
  The energy kernel's body run once, symbolically, in the control case "not the first grid point".
  At every later grid point the body reads its eight input blocks, computes the block's pair energies, sums them to one number and adds it to the accumulator as the previous point left it.
  The run shows that on whole staging buffers — the inputs at their contents, the accumulator at what the point before left — the body
  terminates without a fault, hands the inputs back unchanged and leaves the accumulator written by the stores the run lists.
-/
import proofs.«147298_j47991964566172_1_alg».proof.Proof.KernelRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body makes into the accumulator's buffer in this case (last first), with the run that makes them. -/
noncomputable def kernelRun0_B (c : Dev nD) (i : grid0.Coords) (arg1 : Memref sig .tc .vmem S2000x6 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S2000x64 .f32) (harg6 : arg6.IsWhole) (arg7 : Memref sig .tc .vmem S2000x64 .f32) (harg7 : arg7.IsWhole) (arg8 : Memref sig .tc .vmem S2000x64 .i32) (harg8 : arg8.IsWhole) (arg9 : Memref sig .tc .vmem S1x1 .f32) (harg9 : arg9.IsWhole) (hc0 : ¬cond0_0 i)
    (x0 : Vec F S2000x6 .f32) (x1 : Vec F S2000x64 .f32) (x2 : Vec F S2000x64 .f32) (x3 : Vec F S2000x64 .f32) (x4 : Vec F S2000x64 .f32) (x5 : Vec F S2000x64 .f32) (x6 : Vec F S2000x64 .f32) (x7 : Vec F S2000x64 .i32) (xo8 : Vec F S1x1 .f32) :
    { L8 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8)) -∗ K ⟨⟩))
          ⊢ wp frame (wpE (defs₀ (F := F)) Variants.none c none) E (cc0__kernel i arg1 harg1 arg2 harg2 arg3 harg3 arg4 harg4 arg5 harg5 arg6 harg6 arg7 harg7 arg8 harg8 arg9 harg9) K } := by
  refine ⟨?_, fun E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact H8

end Cert.Kernel.Hand

end
-- ==== Proof.KernelFrame.lean ====
/-
  The energy kernel terminates, faults nowhere and leaves its arguments alone.
  The 1×1 output block is an accumulator: its block index never moves, so its staging buffer is written back only
  after the last of the 50 grid points, and between points it keeps what the body left. After point 0 it holds
  "zero plus block 0's sum"; after point n + 1 it holds "what point n left plus block n + 1's sum". With these contents named
  point by point (`outsAt0`), each point's body obligation is that point's control case run once, and the
  library's launch theorem for "host lines, one region, host lines" gives the run of @main.
-/
import proofs.«147298_j47991964566172_1_alg».proof.Proof.KernelRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- In the first-point case the two stores into the accumulator's buffer (the zeroing, then the sum) cover it. -/
theorem cover0_A_8 (c : Dev nD) (i : grid0.Coords) (arg1 : Memref sig .tc .vmem S2000x6 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S2000x64 .f32) (harg6 : arg6.IsWhole) (arg7 : Memref sig .tc .vmem S2000x64 .f32) (harg7 : arg7.IsWhole) (arg8 : Memref sig .tc .vmem S2000x64 .i32) (harg8 : arg8.IsWhole) (arg9 : Memref sig .tc .vmem S1x1 .f32) (harg9 : arg9.IsWhole) (hc0 : cond0_0 i)
    (x0 : Vec F S2000x6 .f32) (x1 : Vec F S2000x64 .f32) (x2 : Vec F S2000x64 .f32) (x3 : Vec F S2000x64 .f32) (x4 : Vec F S2000x64 .f32) (x5 : Vec F S2000x64 .f32) (x6 : Vec F S2000x64 .f32) (x7 : Vec F S2000x64 .i32) (y : S1x1.Idx) :
    ∃ pc ∈ (kernelRun0_A c i arg1 harg1 arg2 harg2 arg3 harg3 arg4 harg4 arg5 harg5 arg6 harg6 arg7 harg7 arg8 harg8 arg9 harg9 hc0 x0 x1 x2 x3 x4 x5 x6 x7).1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4 x5 x6 x7).1 S1x1.size (by sl_kernel_rfl) y

/-- What the first-point case leaves in the accumulator's buffer. -/
def out0_A_8 (c : Dev nD) (i : grid0.Coords) (arg1 : Memref sig .tc .vmem S2000x6 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S2000x64 .f32) (harg6 : arg6.IsWhole) (arg7 : Memref sig .tc .vmem S2000x64 .f32) (harg7 : arg7.IsWhole) (arg8 : Memref sig .tc .vmem S2000x64 .i32) (harg8 : arg8.IsWhole) (arg9 : Memref sig .tc .vmem S1x1 .f32) (harg9 : arg9.IsWhole) (hc0 : cond0_0 i)
    (x0 : Vec F S2000x6 .f32) (x1 : Vec F S2000x64 .f32) (x2 : Vec F S2000x64 .f32) (x3 : Vec F S2000x64 .f32) (x4 : Vec F S2000x64 .f32) (x5 : Vec F S2000x64 .f32) (x6 : Vec F S2000x64 .f32) (x7 : Vec F S2000x64 .i32) : Vec F S1x1 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 hc0 x0 x1 x2 x3 x4 x5 x6 x7).1)

/-- In the later-point case the one store into the accumulator's buffer covers it. -/
theorem cover0_B_8 (c : Dev nD) (i : grid0.Coords) (arg1 : Memref sig .tc .vmem S2000x6 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S2000x64 .f32) (harg6 : arg6.IsWhole) (arg7 : Memref sig .tc .vmem S2000x64 .f32) (harg7 : arg7.IsWhole) (arg8 : Memref sig .tc .vmem S2000x64 .i32) (harg8 : arg8.IsWhole) (arg9 : Memref sig .tc .vmem S1x1 .f32) (harg9 : arg9.IsWhole) (hc0 : ¬cond0_0 i)
    (x0 : Vec F S2000x6 .f32) (x1 : Vec F S2000x64 .f32) (x2 : Vec F S2000x64 .f32) (x3 : Vec F S2000x64 .f32) (x4 : Vec F S2000x64 .f32) (x5 : Vec F S2000x64 .f32) (x6 : Vec F S2000x64 .f32) (x7 : Vec F S2000x64 .i32) (xo8 : Vec F S1x1 .f32) (y : S1x1.Idx) :
    ∃ pc ∈ (kernelRun0_B c i arg1 harg1 arg2 harg2 arg3 harg3 arg4 harg4 arg5 harg5 arg6 harg6 arg7 harg7 arg8 harg8 arg9 harg9 hc0 x0 x1 x2 x3 x4 x5 x6 x7 xo8).1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x5 x6 x7 xo8).1 S1x1.size (by sl_kernel_rfl) y

/-- What the later-point case leaves in the accumulator's buffer, given what it found there. -/
def out0_B_8 (c : Dev nD) (i : grid0.Coords) (arg1 : Memref sig .tc .vmem S2000x6 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S2000x64 .f32) (harg6 : arg6.IsWhole) (arg7 : Memref sig .tc .vmem S2000x64 .f32) (harg7 : arg7.IsWhole) (arg8 : Memref sig .tc .vmem S2000x64 .i32) (harg8 : arg8.IsWhole) (arg9 : Memref sig .tc .vmem S1x1 .f32) (harg9 : arg9.IsWhole) (hc0 : ¬cond0_0 i)
    (x0 : Vec F S2000x6 .f32) (x1 : Vec F S2000x64 .f32) (x2 : Vec F S2000x64 .f32) (x3 : Vec F S2000x64 .f32) (x4 : Vec F S2000x64 .f32) (x5 : Vec F S2000x64 .f32) (x6 : Vec F S2000x64 .f32) (x7 : Vec F S2000x64 .i32) (xo8 : Vec F S1x1 .f32) : Vec F S1x1 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 hc0 x0 x1 x2 x3 x4 x5 x6 x7 xo8).1)

/-! ## The accumulator after each point -/

/-- The accumulator's buffer after the body at position `n`: the first-point case at 0, and afterwards the later-point
    case over what the point before left. -/
def outsAt0 (c : Dev nD) : (n : ℕ) → n < cfg0.N → Vec F S1x1 .f32
  | 0, hn => out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩)
  | n + 1, hn =>
    if h0 : (n + 1) % 50 = 0 then
      out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩)
    else
      out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn))

theorem outsAt0_A (c : Dev nD) (t : Fin cfg0.N) (h0 : t.val % 50 = 0) :
    outsAt0 m c t.val t.isLt = out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t) (iblk m c 5 t) (iblk m c 6 t) (iblk m c 7 t) := by
  obtain ⟨n, hn⟩ := t
  cases n with
  | zero => exact rfl
  | succ n => exact (dif_pos h0).trans rfl

theorem outsAt0_B (c : Dev nD) (t : Fin cfg0.N) (h0 : ¬t.val % 50 = 0) :
    outsAt0 m c t.val t.isLt = out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and the
    accumulator's at `outsAt0`; the scoped rest and the generator register pass through; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
/-- At a later point the accumulator's buffer holds what the body left at the point before: it was not written back between. -/
theorem before0_8_B (c : Dev nD) (t : Fin cfg0.N) (h0 : ¬t.val % 50 = 0) (d) :
    (dats m 0 c).before 8 t d = (outsAt0 m c (t.val - 1) (Nat.lt_of_le_of_lt (Nat.sub_le _ _) t.isLt)) := by
  have hN : t.val < 50 := lt_of_lt_of_eq t.isLt (show cfg0.N = 50 from N_0)
  rw [Dat.before_out_kept _ 8 rfl t (by omega) (Bool.eq_false_iff.mpr fun h => by have := (flush0_8 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  have hN : t.val < 50 := lt_of_lt_of_eq t.isLt (show cfg0.N = 50 from N_0)
  by_cases h0 : t.val % 50 = 0
  · rw [outsAt0_A m c t h0]
    unfold out0_A_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iintro ⟨H0, H1, H2, H3, H4, H5, H6, H7, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (cover0_A_8 c _ _ _ _ _ _ _ _ _ _ _ _ _ _ _ _ _ _ _ _ _ _ _ _ _ _ _ _)
  · rw [outsAt0_B m c t h0]
    simp only [before0_8_B m c t h0]
    unfold out0_B_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (cover0_B_8 c _ _ _ _ _ _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault, with every staged array at what the proof data
    computes and every other unscoped buffer as the three host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (run_main m ρ)

end Cert.Kernel.Hand

end
-- ==== Proof.KernelIdealShared.lean ====
/-
  The launch side of the energy kernel's termination-and-no-fault argument, shared by the two control cases of its body:
  the memory as the region finds it (the host lines before the call applied to the launch memory), @main as
  "host lines, the region, host lines", the fact that none of those host lines writes an argument array, the block
  of each operand at a grid point, and the branch condition "this is the first grid point" in closed form.
-/
import proofs.«147298_j47991964566172_1_alg».proof.Proof.Gen.KernelIdeal.Launch
import proofs.«147298_j47991964566172_1_alg».proof.Proof.Gen.KernelIdeal.Skeleton
import proofs.«147298_j47991964566172_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The contents of core `c`'s buffers when the region is entered: the 77 host lines before the call applied to the launch memory. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

set_option maxHeartbeats 4000000 in
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the call, the region, and the three host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch only unscoped TensorCore buffers, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write none of the nine arrays the call stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## No host line writes an argument array -/

set_option maxHeartbeats 4000000 in
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 4000000 in
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 4000000 in
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

set_option maxHeartbeats 4000000 in
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

set_option maxHeartbeats 4000000 in
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

set_option maxHeartbeats 4000000 in
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

set_option maxHeartbeats 4000000 in
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-! ## The operands' blocks -/

/-- Operand `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input operand 0 is fetched at every point and the body leaves it alone, so its staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input operand 1 is fetched at every point and the body leaves it alone, so its staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input operand 2 is fetched at every point and the body leaves it alone, so its staging buffer holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input operand 3 is fetched at every point and the body leaves it alone, so its staging buffer holds its block at every point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input operand 4 is fetched at every point and the body leaves it alone, so its staging buffer holds its block at every point. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input operand 5 is fetched at every point and the body leaves it alone, so its staging buffer holds its block at every point. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input operand 6 is fetched at every point and the body leaves it alone, so its staging buffer holds its block at every point. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input operand 7 is fetched at every point and the body leaves it alone, so its staging buffer holds its block at every point. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- The seven argument arrays are staged by no window and written by no host line, so a run that ends with every
    unstaged buffer as the host tail leaves it ends with the arguments as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c)),
    (((h c).2 main_arg4 (Pipeline.mem_restRefs_of main_arg4 (by decide) (by decide))).trans (W_main_arg4 m dats c)),
    (((h c).2 main_arg5 (Pipeline.mem_restRefs_of main_arg5 (by decide) (by decide))).trans (W_main_arg5 m dats c)),
    (((h c).2 main_arg6 (Pipeline.mem_restRefs_of main_arg6 (by decide) (by decide))).trans (W_main_arg6 m dats c))⟩) h

/-! ## The body's branch condition -/

/-- The condition of the body's one `scf.if`: the grid coordinate is zero. -/
abbrev cond0_0 (i : grid0.Coords) : Prop := (Scalar.cmpi .ne (Scalar.extui (Scalar.cmpi .eq (BitVec.ofNat 32 (i 0).val) 0#32)) 0#32) = 1#1
/-- It holds at the first of the 50 points only. -/
theorem hcond0_0 : ∀ t : Fin cfg0.N, cond0_0 (grid0.coords t) ↔ t.val % 50 = 0 :=
  (by decide +kernel : ∀ t : Fin grid0.N, cond0_0 (grid0.coords t) ↔ t.val % 50 = 0)

/-! ## The staging memrefs the pipeline passes the body -/

/-- The one staging buffer of the output window, through which its contents are stated. -/
abbrev VO0_8 : View sig .tc .vmem S1x1 .f32 := (Memref.whole cc0_stg8_0 : Memref sig .tc .vmem S1x1 .f32).view
abbrev ms0_0 (t : Fin cfg0.N) : Memref sig .tc .vmem S2000x6 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2000x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2000x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2000x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2000x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2000x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2000x64 .i32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1 .f32 := win0_8.stage (cfg0.slots t 8)
abbrev hs0_8 (t : Fin cfg0.N) : (ms0_8 t).IsWhole := hstage0_8 ((cfg0.slots t 8).cast nbuf0_8)

end Cert.KernelIdeal.Hand

end
-- ==== Proof.KernelIdealRunA.lean ====
/-
  The energy kernel's body run once, symbolically, in the control case "first grid point".
  At the first grid point the body zeroes the 1×1 accumulator, reads its eight input blocks, computes the block's pair energies, sums them to one number and adds it to the accumulator it has just zeroed.
  The run shows that on whole staging buffers — the inputs at their contents, the accumulator at anything — the body
  terminates without a fault, hands the inputs back unchanged and leaves the accumulator written by the stores the run lists.
-/
import proofs.«147298_j47991964566172_1_alg».proof.Proof.KernelIdealShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body makes into the accumulator's buffer in this case (last first), with the run that makes them. -/
noncomputable def kernelRun0_A (c : Dev nD) (i : grid0.Coords) (arg1 : Memref sig .tc .vmem S2000x6 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S2000x64 .f32) (harg6 : arg6.IsWhole) (arg7 : Memref sig .tc .vmem S2000x64 .f32) (harg7 : arg7.IsWhole) (arg8 : Memref sig .tc .vmem S2000x64 .i32) (harg8 : arg8.IsWhole) (arg9 : Memref sig .tc .vmem S1x1 .f32) (harg9 : arg9.IsWhole) (hc0 : cond0_0 i)
    (x0 : Vec F S2000x6 .f32) (x1 : Vec F S2000x64 .f32) (x2 : Vec F S2000x64 .f32) (x3 : Vec F S2000x64 .f32) (x4 : Vec F S2000x64 .f32) (x5 : Vec F S2000x64 .f32) (x6 : Vec F S2000x64 .f32) (x7 : Vec F S2000x64 .i32) :
    { L8 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8)) -∗ K ⟨⟩))
          ⊢ wp frame (wpE (defs₀ (F := F)) Variants.none c none) E (cc0__kernel i arg1 harg1 arg2 harg2 arg3 harg3 arg4 harg4 arg5 harg5 arg6 harg6 arg7 harg7 arg8 harg8 arg9 harg9) K } := by
  refine ⟨?_, fun E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact H8

end Cert.KernelIdeal.Hand

end
-- ==== Proof.KernelIdealRunB.lean ====
/-
  The energy kernel's body run once, symbolically, in the control case "not the first grid point".
  At every later grid point the body reads its eight input blocks, computes the block's pair energies, sums them to one number and adds it to the accumulator as the previous point left it.
  The run shows that on whole staging buffers — the inputs at their contents, the accumulator at what the point before left — the body
  terminates without a fault, hands the inputs back unchanged and leaves the accumulator written by the stores the run lists.
-/
import proofs.«147298_j47991964566172_1_alg».proof.Proof.KernelIdealRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body makes into the accumulator's buffer in this case (last first), with the run that makes them. -/
noncomputable def kernelRun0_B (c : Dev nD) (i : grid0.Coords) (arg1 : Memref sig .tc .vmem S2000x6 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S2000x64 .f32) (harg6 : arg6.IsWhole) (arg7 : Memref sig .tc .vmem S2000x64 .f32) (harg7 : arg7.IsWhole) (arg8 : Memref sig .tc .vmem S2000x64 .i32) (harg8 : arg8.IsWhole) (arg9 : Memref sig .tc .vmem S1x1 .f32) (harg9 : arg9.IsWhole) (hc0 : ¬cond0_0 i)
    (x0 : Vec F S2000x6 .f32) (x1 : Vec F S2000x64 .f32) (x2 : Vec F S2000x64 .f32) (x3 : Vec F S2000x64 .f32) (x4 : Vec F S2000x64 .f32) (x5 : Vec F S2000x64 .f32) (x6 : Vec F S2000x64 .f32) (x7 : Vec F S2000x64 .i32) (xo8 : Vec F S1x1 .f32) :
    { L8 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8)) -∗ K ⟨⟩))
          ⊢ wp frame (wpE (defs₀ (F := F)) Variants.none c none) E (cc0__kernel i arg1 harg1 arg2 harg2 arg3 harg3 arg4 harg4 arg5 harg5 arg6 harg6 arg7 harg7 arg8 harg8 arg9 harg9) K } := by
  refine ⟨?_, fun E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact H8

end Cert.KernelIdeal.Hand

end
-- ==== Proof.KernelIdealFrame.lean ====
/-
  The energy kernel terminates, faults nowhere and leaves its arguments alone.
  The 1×1 output block is an accumulator: its block index never moves, so its staging buffer is written back only
  after the last of the 50 grid points, and between points it keeps what the body left. After point 0 it holds
  "zero plus block 0's sum"; after point n + 1 it holds "what point n left plus block n + 1's sum". With these contents named
  point by point (`outsAt0`), each point's body obligation is that point's control case run once, and the
  library's launch theorem for "host lines, one region, host lines" gives the run of @main.
-/
import proofs.«147298_j47991964566172_1_alg».proof.Proof.KernelIdealRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- In the first-point case the two stores into the accumulator's buffer (the zeroing, then the sum) cover it. -/
theorem cover0_A_8 (c : Dev nD) (i : grid0.Coords) (arg1 : Memref sig .tc .vmem S2000x6 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S2000x64 .f32) (harg6 : arg6.IsWhole) (arg7 : Memref sig .tc .vmem S2000x64 .f32) (harg7 : arg7.IsWhole) (arg8 : Memref sig .tc .vmem S2000x64 .i32) (harg8 : arg8.IsWhole) (arg9 : Memref sig .tc .vmem S1x1 .f32) (harg9 : arg9.IsWhole) (hc0 : cond0_0 i)
    (x0 : Vec F S2000x6 .f32) (x1 : Vec F S2000x64 .f32) (x2 : Vec F S2000x64 .f32) (x3 : Vec F S2000x64 .f32) (x4 : Vec F S2000x64 .f32) (x5 : Vec F S2000x64 .f32) (x6 : Vec F S2000x64 .f32) (x7 : Vec F S2000x64 .i32) (y : S1x1.Idx) :
    ∃ pc ∈ (kernelRun0_A c i arg1 harg1 arg2 harg2 arg3 harg3 arg4 harg4 arg5 harg5 arg6 harg6 arg7 harg7 arg8 harg8 arg9 harg9 hc0 x0 x1 x2 x3 x4 x5 x6 x7).1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4 x5 x6 x7).1 S1x1.size (by sl_kernel_rfl) y

/-- What the first-point case leaves in the accumulator's buffer. -/
def out0_A_8 (c : Dev nD) (i : grid0.Coords) (arg1 : Memref sig .tc .vmem S2000x6 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S2000x64 .f32) (harg6 : arg6.IsWhole) (arg7 : Memref sig .tc .vmem S2000x64 .f32) (harg7 : arg7.IsWhole) (arg8 : Memref sig .tc .vmem S2000x64 .i32) (harg8 : arg8.IsWhole) (arg9 : Memref sig .tc .vmem S1x1 .f32) (harg9 : arg9.IsWhole) (hc0 : cond0_0 i)
    (x0 : Vec F S2000x6 .f32) (x1 : Vec F S2000x64 .f32) (x2 : Vec F S2000x64 .f32) (x3 : Vec F S2000x64 .f32) (x4 : Vec F S2000x64 .f32) (x5 : Vec F S2000x64 .f32) (x6 : Vec F S2000x64 .f32) (x7 : Vec F S2000x64 .i32) : Vec F S1x1 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 hc0 x0 x1 x2 x3 x4 x5 x6 x7).1)

/-- In the later-point case the one store into the accumulator's buffer covers it. -/
theorem cover0_B_8 (c : Dev nD) (i : grid0.Coords) (arg1 : Memref sig .tc .vmem S2000x6 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S2000x64 .f32) (harg6 : arg6.IsWhole) (arg7 : Memref sig .tc .vmem S2000x64 .f32) (harg7 : arg7.IsWhole) (arg8 : Memref sig .tc .vmem S2000x64 .i32) (harg8 : arg8.IsWhole) (arg9 : Memref sig .tc .vmem S1x1 .f32) (harg9 : arg9.IsWhole) (hc0 : ¬cond0_0 i)
    (x0 : Vec F S2000x6 .f32) (x1 : Vec F S2000x64 .f32) (x2 : Vec F S2000x64 .f32) (x3 : Vec F S2000x64 .f32) (x4 : Vec F S2000x64 .f32) (x5 : Vec F S2000x64 .f32) (x6 : Vec F S2000x64 .f32) (x7 : Vec F S2000x64 .i32) (xo8 : Vec F S1x1 .f32) (y : S1x1.Idx) :
    ∃ pc ∈ (kernelRun0_B c i arg1 harg1 arg2 harg2 arg3 harg3 arg4 harg4 arg5 harg5 arg6 harg6 arg7 harg7 arg8 harg8 arg9 harg9 hc0 x0 x1 x2 x3 x4 x5 x6 x7 xo8).1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x5 x6 x7 xo8).1 S1x1.size (by sl_kernel_rfl) y

/-- What the later-point case leaves in the accumulator's buffer, given what it found there. -/
def out0_B_8 (c : Dev nD) (i : grid0.Coords) (arg1 : Memref sig .tc .vmem S2000x6 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S2000x64 .f32) (harg6 : arg6.IsWhole) (arg7 : Memref sig .tc .vmem S2000x64 .f32) (harg7 : arg7.IsWhole) (arg8 : Memref sig .tc .vmem S2000x64 .i32) (harg8 : arg8.IsWhole) (arg9 : Memref sig .tc .vmem S1x1 .f32) (harg9 : arg9.IsWhole) (hc0 : ¬cond0_0 i)
    (x0 : Vec F S2000x6 .f32) (x1 : Vec F S2000x64 .f32) (x2 : Vec F S2000x64 .f32) (x3 : Vec F S2000x64 .f32) (x4 : Vec F S2000x64 .f32) (x5 : Vec F S2000x64 .f32) (x6 : Vec F S2000x64 .f32) (x7 : Vec F S2000x64 .i32) (xo8 : Vec F S1x1 .f32) : Vec F S1x1 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 hc0 x0 x1 x2 x3 x4 x5 x6 x7 xo8).1)

/-! ## The accumulator after each point -/

/-- The accumulator's buffer after the body at position `n`: the first-point case at 0, and afterwards the later-point
    case over what the point before left. -/
def outsAt0 (c : Dev nD) : (n : ℕ) → n < cfg0.N → Vec F S1x1 .f32
  | 0, hn => out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩)
  | n + 1, hn =>
    if h0 : (n + 1) % 50 = 0 then
      out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩)
    else
      out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn))

theorem outsAt0_A (c : Dev nD) (t : Fin cfg0.N) (h0 : t.val % 50 = 0) :
    outsAt0 m c t.val t.isLt = out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t) (iblk m c 5 t) (iblk m c 6 t) (iblk m c 7 t) := by
  obtain ⟨n, hn⟩ := t
  cases n with
  | zero => exact rfl
  | succ n => exact (dif_pos h0).trans rfl

theorem outsAt0_B (c : Dev nD) (t : Fin cfg0.N) (h0 : ¬t.val % 50 = 0) :
    outsAt0 m c t.val t.isLt = out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and the
    accumulator's at `outsAt0`; the scoped rest and the generator register pass through; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
/-- At a later point the accumulator's buffer holds what the body left at the point before: it was not written back between. -/
theorem before0_8_B (c : Dev nD) (t : Fin cfg0.N) (h0 : ¬t.val % 50 = 0) (d) :
    (dats m 0 c).before 8 t d = (outsAt0 m c (t.val - 1) (Nat.lt_of_le_of_lt (Nat.sub_le _ _) t.isLt)) := by
  have hN : t.val < 50 := lt_of_lt_of_eq t.isLt (show cfg0.N = 50 from N_0)
  rw [Dat.before_out_kept _ 8 rfl t (by omega) (Bool.eq_false_iff.mpr fun h => by have := (flush0_8 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  have hN : t.val < 50 := lt_of_lt_of_eq t.isLt (show cfg0.N = 50 from N_0)
  by_cases h0 : t.val % 50 = 0
  · rw [outsAt0_A m c t h0]
    unfold out0_A_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iintro ⟨H0, H1, H2, H3, H4, H5, H6, H7, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (cover0_A_8 c _ _ _ _ _ _ _ _ _ _ _ _ _ _ _ _ _ _ _ _ _ _ _ _ _ _ _ _)
  · rw [outsAt0_B m c t h0]
    simp only [before0_8_B m c t h0]
    unfold out0_B_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (cover0_B_8 c _ _ _ _ _ _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault, with every staged array at what the proof data
    computes and every other unscoped buffer as the three host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (run_main m ρ)

end Cert.KernelIdeal.Hand

end
-- ==== Proof.KernelIdealBlocks.lean ====
/-
  The sum a grid point adds to the energy kernel's accumulator, named: the 2000 row sums of the point's block
  (each row's pair terms summed over the 64 slots), and their sum.
-/
import proofs.«147298_j47991964566172_1_alg».proof.Proof.KernelIdealShared
import Idealize.ShloMosaic.PureOps.Ideal
import Idealize.ShloMosaic.Lib.ValueIdx

noncomputable section

open scoped BigOperators

open Idealize.ShloMosaic Idealize.ShloMosaic.TcCoe Idealize.SL.Sem

namespace Cert.KernelIdeal.Val

open Cert.KernelIdeal Cert.KernelIdeal.Gen Cert.KernelIdeal.Hand Idealize.ShloMosaic.ValueIdx

variable {F : FTy → Type} [FloatOps F]

/-- The 2000 row sums of a block: each row's pair terms summed over the 64 slots. -/
def rows (x0 : Vec F S2000x6 .f32) (x1 : Vec F S2000x64 .f32) (x2 : Vec F S2000x64 .f32) (x3 : Vec F S2000x64 .f32) (x4 : Vec F S2000x64 .f32) (x5 : Vec F S2000x64 .f32) (x6 : Vec F S2000x64 .f32) (x7 : Vec F S2000x64 .i32) : FVec F S2000 .f32 :=
  k0_pay11 (k0_pay4 x0) (k0_pay5 x0) (k0_pay6 x0) (k0_pay7 x4) (k0_pay8 x5) (k0_pay9 x6) (k0_pay10 x0 x1 x2 x3 x7)

variable (m : (ℓ : Loc nD τ sig) → Buf (Elt Ideal) ℓ)

/-- Block `t`'s sum: its 2000 row sums added. -/
def blockSum (c : Dev nD) (t : Fin cfg0.N) : EReal :=
  ∑ r : Fin 2000, rows (F := Ideal) (iblk m c 0 t) (iblk m c 1 t) (iblk m c 2 t) (iblk m c 3 t) (iblk m c 4 t) (iblk m c 5 t) (iblk m c 6 t) (iblk m c 7 t) (ix1 r)

/-- The same for a position that may be past the grid (then zero), so that partial sums range over numbers. -/
def blockSumN (c : Dev nD) (s : ℕ) : EReal := if h : s < cfg0.N then blockSum m c ⟨s, h⟩ else 0

end Cert.KernelIdeal.Val

end
-- ==== Proof.EnergySpec.lean ====
/-
  The dispersion energy both programs compute, as one function on the extended reals.
  For atom n and neighbour slot l, with j the neighbour's row (the slot's index word read signed and clamped into
  the table), the pair term is
    c6ij · ( 1 / (d⁶ + r0⁶) + 2·rrij / (d⁸ + r0⁸) ),
  where d = √(d²)·1.889716 with d² the squared distance of rows n and j (replaced by 1 where the slot is masked),
  c6ij = 2·c6ₙ·c6ⱼ / max(c6ₙ·a'ⱼ/a'ₙ + c6ⱼ·a'ₙ/a'ⱼ, ε) with a' = max(α, ε), rrij = 3·rrₙ·rrⱼ and r0 = 0.5299·√rrij + 4.6.
  The energy is the sum of the pair terms over all 100000 × 64 (atom, slot) pairs. The literals are kept as the f32 words
  both programs print; the sixth and eighth powers are spelt as the kernel multiplies them.
-/
import Idealize.ShloMosaic.PureOps.Ideal
import Idealize.ShloMosaic.Lib.ValueIdx

noncomputable section

open scoped BigOperators

namespace Cert.Energy

open Idealize.ShloMosaic Idealize.ShloMosaic.ValueIdx

/-- 1.0 -/
abbrev wOne : EReal := Ideal.ofBits .f32 0x3F800000#32
/-- 1.88971603 -/
abbrev wAng : EReal := Ideal.ofBits .f32 0x3FF1E237#32
/-- 9.99999997e-7 -/
abbrev wEps : EReal := Ideal.ofBits .f32 0x358637BD#32
/-- 2.0 -/
abbrev wTwo : EReal := Ideal.ofBits .f32 0x40000000#32
/-- 3.0 -/
abbrev wThree : EReal := Ideal.ofBits .f32 0x40400000#32
/-- 0.5299 -/
abbrev wA1 : EReal := Ideal.ofBits .f32 0x3F07A787#32
/-- 4.6 -/
abbrev wA2 : EReal := Ideal.ofBits .f32 0x40933333#32

/-- One pair's term, from the twelve numbers of the two atoms and the slot's mask bit. -/
def pair (xi yi zi c6i ai rri xj yj zj c6j aj rrj : EReal) (mk : BitVec 1) : EReal :=
  let d2 := Scalar.select mk wOne ((xj - xi) * (xj - xi) + (yj - yi) * (yj - yi) + (zj - zi) * (zj - zi))
  let d := Ideal.sqrt d2 * wAng
  let aic := max ai wEps
  let ajc := max aj wEps
  let den := max (Ideal.div (c6i * ajc) aic + Ideal.div (c6j * aic) ajc) wEps
  let c6ij := Ideal.div (wTwo * c6i * c6j) den
  let rrij := wThree * rri * rrj
  let r0 := wA1 * Ideal.sqrt rrij + wA2
  let dsq := d * d
  let d4 := dsq * dsq
  let rsq := r0 * r0
  let r4 := rsq * rsq
  c6ij * (Ideal.div wOne (d4 * dsq + r4 * rsq) + Ideal.div (wTwo * rrij) (d4 * d4 + r4 * r4))

/-- A neighbour slot's index word as a row of the table: read signed, clamped into [0, 99999]. -/
def row (w : BitVec 32) : Fin 100000 := ⟨min w.toInt.toNat (100000 - 1), by omega⟩

/-- The pair term of atom `n` and slot `l`, read off the arrays: the coordinates, the per-atom c6, α and rr, the
    (normalized) neighbour index words, the neighbour's c6, α and rr already gathered, and the mask. -/
def pairAt (coord : FVec Ideal ⟨2, ![100000, 3]⟩ .f32) (c6 al rr : FVec Ideal ⟨1, ![100000]⟩ .f32)
    (nidx : IVec ⟨3, ![100000, 64, 1]⟩ 32) (c6j aj rrj : FVec Ideal ⟨2, ![100000, 64]⟩ .f32)
    (mk : IVec ⟨2, ![100000, 64]⟩ 1) (n : Fin 100000) (l : Fin 64) : EReal :=
  pair (coord (ix2 n 0)) (coord (ix2 n 1)) (coord (ix2 n 2)) (c6 (ix1 n)) (al (ix1 n)) (rr (ix1 n))
    (coord (ix2 (row (nidx (ix3 n l 0))) 0)) (coord (ix2 (row (nidx (ix3 n l 0))) 1)) (coord (ix2 (row (nidx (ix3 n l 0))) 2))
    (c6j (ix2 n l)) (aj (ix2 n l)) (rrj (ix2 n l)) (mk (ix2 n l))

/-- The energy before its final scale: all pair terms summed. -/
def energy (coord : FVec Ideal ⟨2, ![100000, 3]⟩ .f32) (c6 al rr : FVec Ideal ⟨1, ![100000]⟩ .f32)
    (nidx : IVec ⟨3, ![100000, 64, 1]⟩ 32) (c6j aj rrj : FVec Ideal ⟨2, ![100000, 64]⟩ .f32)
    (mk : IVec ⟨2, ![100000, 64]⟩ 1) : EReal :=
  ∑ n : Fin 100000, ∑ l : Fin 64, pairAt coord c6 al rr nidx c6j aj rrj mk n l

/-- The 100000 atoms are 50 blocks of 2000: summing block by block, row by row, slot by slot is the same sum. -/
theorem sum_blocks (f : Fin 100000 → EReal) :
    ∑ t : Fin 50, ∑ r : Fin 2000, f ⟨2000 * t.val + r.val, by omega⟩ = ∑ n : Fin 100000, f n := by
  rw [← Finset.sum_product', ← (finProdFinEquiv (m := 50) (n := 2000)).sum_comp]
  refine Finset.sum_congr rfl fun p _ => ?_
  refine congrArg f (Fin.ext ?_)
  simp only [finProdFinEquiv_apply_val]
  omega

end Cert.Energy

end
-- ==== Proof.LibRowOps.lean ====
/-
  Row-wise operations read at an index, at the ideal instance, for a matrix of any number of rows: a reduction along
  the columns (a sum, a maximum) read at a row is the sum, or the fold of `max`, over that row's entries; a vector of
  row values made a column and that column broadcast along the rows read at (row, column) are the row's value; and a
  matrix product into a zero accumulator read at (row, column) is the sum over the contracted axis of the row's entries
  against the column's. None of them depends on the other rows, which is why a kernel may cut the rows into blocks.
-/
import Idealize.ShloMosaic.PureOps.Ideal.Laws
import Idealize.ShloMosaic.Lib.ValueLayout

noncomputable section

open scoped BigOperators

namespace Cert.RowOps

open Idealize.ShloMosaic Idealize.ShloMosaic.ValueIdx

variable {R N K : ℕ} {φ φ₁ φ₂ : FTy} {α : Type}

/-- Over row `r` of an `R × N` matrix reduced along its columns, the source index with column `k` put back is
    `(r, k)`. -/
theorem lift_row (h : (⟨2, ![R, N]⟩ : Shape).Reduces [(1 : Fin 2)] ⟨1, ![R]⟩) (r : Fin R) (k : Fin N) :
    h.lift (ix1 r) k = ix2 r k := by
  funext c
  apply Fin.ext
  match c with
  | ⟨0, _⟩ => rfl
  | ⟨1, _⟩ => rfl

/-- A sum along the columns, read at row `r`: the sum of that row's entries. -/
theorem rowSum_apply (src : FVec Ideal ⟨2, ![R, N]⟩ φ) (acc : BitVec φ.bits)
    (h : (⟨2, ![R, N]⟩ : Shape).Reduces [(1 : Fin 2)] ⟨1, ![R]⟩) (hφ : FKind.Formats φ)
    (hacc : acc = FKind.add.neutral φ hφ) (r : Fin R) :
    multiReduction .add [(1 : Fin 2)] ⟨1, ![R]⟩ src acc h hφ hacc (ix1 r) = ∑ k : Fin N, src (ix2 r k) :=
  (Ideal.multiReduction_add_single src acc h hφ hacc (ix1 r)).trans
    (Finset.sum_congr rfl fun k _ => congrArg src (lift_row h r k))

/-- A maximum along the columns, read at row `r`: the fold of `max`, from the accumulator's value, over that row's
    entries. -/
theorem rowMax_apply (src : FVec Ideal ⟨2, ![R, N]⟩ φ) (acc : BitVec φ.bits)
    (h : (⟨2, ![R, N]⟩ : Shape).Reduces [(1 : Fin 2)] ⟨1, ![R]⟩) (hφ : FKind.Formats φ)
    (hacc : acc = FKind.maximumf.neutral φ hφ) (r : Fin R) :
    multiReduction .maximumf [(1 : Fin 2)] ⟨1, ![R]⟩ src acc h hφ hacc (ix1 r)
      = (Finset.univ : Finset (Fin N)).fold max (Ideal.ofBits φ acc) (fun k => src (ix2 r k)) := by
  have e : src ∘ h.lift (ix1 r) = fun k : Fin N => src (ix2 r k) := funext fun k => congrArg src (lift_row h r k)
  rw [Ideal.multiReduction_maximumf_single, e]
  rfl

/-- A vector of `R` values made an `R × 1` column reads, at `(r, u)`, the value at `r`. -/
theorem shapeCast_a_a1_apply (x : (⟨1, ![R]⟩ : Shape).Idx → α) (h : (⟨1, ![R]⟩ : Shape).ShapeCasts ⟨2, ![R, 1]⟩)
    (r : Fin R) (u : Fin 1) : shapeCast ⟨2, ![R, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `R × 1` column broadcast along `N` columns reads, at `(r, c)`, the column's entry at row `r`. -/
theorem broadcastTo_a1_ab_apply (v : (⟨2, ![R, 1]⟩ : Shape).Idx → α) (h : (⟨2, ![R, 1]⟩ : Shape).Broadcasts ⟨2, ![R, N]⟩)
    (r : Fin R) (c : Fin N) : broadcastTo ⟨2, ![R, N]⟩ v h (ix2 r c) = v (ix2 r (0 : Fin 1)) := by
  refine broadcastTo_apply v h (ix2 r c) (ix2 r (0 : Fin 1)) fun ax => ?_
  match ax with
  | ⟨0, _⟩ =>
    show r.val = if R = 1 then 0 else r.val
    split
    · have := r.isLt; omega
    · rfl
  | ⟨1, _⟩ =>
    show (0 : ℕ) = if (1 : ℕ) = 1 then 0 else c.val
    rw [if_pos rfl]

/-- The two together: a vector of row values, made a column and broadcast along the columns, reads the row's value. -/
theorem rowSplat_apply (x : (⟨1, ![R]⟩ : Shape).Idx → α) (hc : (⟨1, ![R]⟩ : Shape).ShapeCasts ⟨2, ![R, 1]⟩)
    (hb : (⟨2, ![R, 1]⟩ : Shape).Broadcasts ⟨2, ![R, N]⟩) (r : Fin R) (c : Fin N) :
    broadcastTo ⟨2, ![R, N]⟩ (shapeCast ⟨2, ![R, 1]⟩ x hc) hb (ix2 r c) = x (ix1 r) := by
  rw [broadcastTo_a1_ab_apply, shapeCast_a_a1_apply]

/-- A matrix index whose two coordinates are known is `ix2` of them. -/
theorem eq_ix2_of_val {n0 n1 : ℕ} (i : (⟨2, ![n0, n1]⟩ : Shape).Idx) (a : Fin n0) (b : Fin n1)
    (h0 : (i (0 : Fin 2)).val = a.val) (h1 : (i (1 : Fin 2)).val = b.val) : i = ix2 a b := by
  funext c
  apply Fin.ext
  match c with
  | ⟨0, _⟩ => exact h0
  | ⟨1, _⟩ => exact h1

/-- With no batch axes and the rows the left operand's one free axis, the left index's row is the result index's row,
    whatever the contraction position. -/
theorem lhsIdx_row (d : DotDims ⟨2, ![R, K]⟩ ⟨2, ![K, N]⟩ ⟨2, ![R, N]⟩)
    (hln : d.lhsNonContracting = [(0 : Fin 2)]) (hlb : d.lhsBatch = [])
    (j : (⟨2, ![R, N]⟩ : Shape).Idx) (q : d.contr.Idx) : (d.lhsIdx j q (0 : Fin 2)).val = (j (0 : Fin 2)).val := by
  have hnb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hnb, dif_pos hn]
  simp only [Fin.val_cast]
  have key : ∀ (p p' : ℕ) (hp : p < 2) (hp' : p' < 2), p = p' → (j ⟨p, hp⟩).val = (j ⟨p', hp'⟩).val :=
    fun p p' hp hp' e => by subst e; rfl
  exact key _ _ _ _ (by simp [hlb, hln])

/-- With no batch axes, the rows the left operand's one free axis and the columns the right operand's, the right index's
    column is the result index's column, whatever the contraction position. -/
theorem rhsIdx_col (d : DotDims ⟨2, ![R, K]⟩ ⟨2, ![K, N]⟩ ⟨2, ![R, N]⟩)
    (hln : d.lhsNonContracting = [(0 : Fin 2)]) (hrn : d.rhsNonContracting = [(1 : Fin 2)])
    (hlb : d.lhsBatch = []) (hrb : d.rhsBatch = [])
    (j : (⟨2, ![R, N]⟩ : Shape).Idx) (q : d.contr.Idx) : (d.rhsIdx j q (1 : Fin 2)).val = (j (1 : Fin 2)).val := by
  have hnb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hnb, dif_pos hn]
  simp only [Fin.val_cast]
  have key : ∀ (p p' : ℕ) (hp : p < 2) (hp' : p' < 2), p = p' → (j ⟨p, hp⟩).val = (j ⟨p', hp'⟩).val :=
    fun p p' hp hp' e => by subst e; rfl
  exact key _ _ _ _ (by simp [hlb, hln, hrn])

/-- A plain matrix product (`R × K` by `K × N`, the left operand's columns contracted against the right operand's rows,
    no batch axes) into the zero accumulator, read at `(r, j)`: the sum over `k` of row `r` of the left operand against
    column `j` of the right. -/
theorem matmul_row_apply (d : DotDims ⟨2, ![R, K]⟩ ⟨2, ![K, N]⟩ ⟨2, ![R, N]⟩)
    (hlc : d.lhsContracting = [(1 : Fin 2)]) (hrc : d.rhsContracting = [(0 : Fin 2)])
    (hln : d.lhsNonContracting = [(0 : Fin 2)]) (hrn : d.rhsNonContracting = [(1 : Fin 2)])
    (hlb : d.lhsBatch = []) (hrb : d.rhsBatch = [])
    (prec : Option ContractPrecision) (lhs : FVec Ideal ⟨2, ![R, K]⟩ φ₁) (rhs : FVec Ideal ⟨2, ![K, N]⟩ φ₂)
    (r : Fin R) (j : Fin N) :
    FloatOps.matmul d prec lhs rhs (constant ⟨2, ![R, N]⟩ .f32 0x00000000#32) (ix2 r j)
      = ∑ k : Fin K, lhs (ix2 r k) * rhs (ix2 k j) := by
  have hr : d.contr.rank = 1 := by rw [d.rank_contr, hlc]; rfl
  have hs : d.contr.size ⟨0, by omega⟩ = K := by
    have h0 : 0 < d.lhsContracting.length := by rw [hlc]; exact Nat.one_pos
    have e1 : d.lhsContracting[0] = (1 : Fin 2) := by simp [hlc]
    exact (d.size_contr 0 h0).trans (by rw [e1]; rfl)
  rw [Ideal.matmul_constant_zero_apply]
  refine ((contrEquiv1 d K hr hs).symm.sum_comp _).symm.trans (Finset.sum_congr rfl fun k _ => ?_)
  have hL : d.lhsIdx (ix2 r j) ((contrEquiv1 d K hr hs).symm k) = ix2 r k :=
    eq_ix2_of_val _ r k (lhsIdx_row d hln hlb _ _)
      ((d.lhsIdx_val_of_single hlc _ _).trans (contrEquiv1_symm_val d K hr hs k))
  have hR : d.rhsIdx (ix2 r j) ((contrEquiv1 d K hr hs).symm k) = ix2 k j :=
    eq_ix2_of_val _ k j ((d.rhsIdx_val_of_single hrc _ _).trans (contrEquiv1_symm_val d K hr hs k))
      (rhsIdx_col d hln hrn hlb hrb _ _)
  show lhs (d.lhsIdx (ix2 r j) ((contrEquiv1 d K hr hs).symm k)) * rhs (d.rhsIdx (ix2 r j) ((contrEquiv1 d K hr hs).symm k)) = _
  rw [hL, hR]

end Cert.RowOps

end
-- ==== Proof.KernelIdealPayload.lean ====
/-
  The energy kernel's arithmetic read at an index of a block: the lane sum of a row of the block is the sum over the
  64 slots of the pair term of that row's numbers, and the accumulator's update adds the column sum of those row sums.
-/
import proofs.«147298_j47991964566172_1_alg».proof.Proof.Gen.KernelIdeal.Skeleton
import proofs.«147298_j47991964566172_1_alg».proof.Proof.EnergySpec
import proofs.«147298_j47991964566172_1_alg».proof.Proof.LibRowOps
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The per-atom columns and the per-slot matrices read at an index -/

/-- Column `o` of the 2000 × 6 block, cut out as a 2000 × 1 column, reads at row `r` the block's entry `(r, o)`:
    the cast of the block to its own shape is the identity, and the slice shifts the column coordinate by `o`. -/
theorem col_apply (x0 : Vec Ideal S2000x6 .f32) (o : Nat) (h : S2000x6.Slices ![0, o] S2000x1) (r : Fin 2000) (u : Fin 1)
    (k : Fin 6) (hk : k.val = o) :
    extractStridedSlice S2000x1 ![0, o] (k0_pay3 x0) h (ix2 r u) = x0 (ix2 r k) := by
  unfold k0_pay3
  refine (slice2_axis1_apply o _ h r u k (by omega)).trans ?_
  rw [shapeCast_self]

/-- The atom's c6 is column 3 of the block. -/
theorem pay4_apply (x0 : Vec Ideal S2000x6 .f32) (r : Fin 2000) (u : Fin 1) : k0_pay4 x0 (ix2 r u) = x0 (ix2 r 3) :=
  col_apply x0 3 slices_S2000x6_o0_3_S2000x1 r u 3 rfl

/-- The atom's α is column 4 of the block. -/
theorem pay5_apply (x0 : Vec Ideal S2000x6 .f32) (r : Fin 2000) (u : Fin 1) : k0_pay5 x0 (ix2 r u) = x0 (ix2 r 4) :=
  col_apply x0 4 slices_S2000x6_o0_4_S2000x1 r u 4 rfl

/-- The atom's rr is column 5 of the block. -/
theorem pay6_apply (x0 : Vec Ideal S2000x6 .f32) (r : Fin 2000) (u : Fin 1) : k0_pay6 x0 (ix2 r u) = x0 (ix2 r 5) :=
  col_apply x0 5 slices_S2000x6_o0_5_S2000x1 r u 5 rfl

/-- The neighbours' c6, α and rr matrices are cast to their own shape: nothing changes. -/
theorem pay7_eq (x : Vec Ideal S2000x64 .f32) : k0_pay7 x = x := shapeCast_self _ _
theorem pay8_eq (x : Vec Ideal S2000x64 .f32) : k0_pay8 x = x := shapeCast_self _ _
theorem pay9_eq (x : Vec Ideal S2000x64 .f32) : k0_pay9 x = x := shapeCast_self _ _

/-- The square root of a matrix is taken entry by entry. -/
theorem sqrt_apply (a : FVec Ideal S2000x64 .f32) (i : S2000x64.Idx) : sqrt a i = Ideal.sqrt (a i) := rfl

/-- The squared distance at (row, slot): the atom's coordinates are columns 0, 1, 2 of the block, each spread along
    the 64 slots; the differences to the neighbour's coordinates are squared and summed, and a masked slot reads 1. -/
theorem pay10_apply (x0 : Vec Ideal S2000x6 .f32) (x1 x2 x3 : Vec Ideal S2000x64 .f32) (x7 : Vec Ideal S2000x64 .i32)
    (r : Fin 2000) (l : Fin 64) :
    k0_pay10 x0 x1 x2 x3 x7 (ix2 r l)
      = Scalar.select (Scalar.cmpi .ne (x7 (ix2 r l)) 0#32) Cert.Energy.wOne
          ((x1 (ix2 r l) - x0 (ix2 r 0)) * (x1 (ix2 r l) - x0 (ix2 r 0))
            + (x2 (ix2 r l) - x0 (ix2 r 1)) * (x2 (ix2 r l) - x0 (ix2 r 1))
            + (x3 (ix2 r l) - x0 (ix2 r 2)) * (x3 (ix2 r l) - x0 (ix2 r 2))) := by
  unfold k0_pay10
  simp only [select_apply, addf_apply, mulf_apply, subf_apply, shapeCast_self, Cert.RowOps.broadcastTo_a1_ab_apply,
    col_apply x0 0 _ r 0 0 rfl, col_apply x0 1 _ r 0 1 rfl, col_apply x0 2 _ r 0 2 rfl]
  rfl

/-! ## The three facts the run is written against -/

/-- Row `r` of the block: the lane sum of the pair terms of that row. -/
theorem rowSums_apply (x0 : Vec Ideal S2000x6 .f32) (x1 x2 x3 x4 x5 x6 : Vec Ideal S2000x64 .f32) (x7 : Vec Ideal S2000x64 .i32) (r : Fin 2000) :
    k0_pay11 (F := Ideal) (k0_pay4 x0) (k0_pay5 x0) (k0_pay6 x0) (k0_pay7 x4) (k0_pay8 x5) (k0_pay9 x6) (k0_pay10 x0 x1 x2 x3 x7) (ix1 r)
      = ∑ l : Fin 64, Cert.Energy.pair (x0 (ix2 r 0)) (x0 (ix2 r 1)) (x0 (ix2 r 2)) (x0 (ix2 r 3)) (x0 (ix2 r 4)) (x0 (ix2 r 5))
          (x1 (ix2 r l)) (x2 (ix2 r l)) (x3 (ix2 r l)) (x4 (ix2 r l)) (x5 (ix2 r l)) (x6 (ix2 r l)) (Scalar.cmpi .ne (x7 (ix2 r l)) 0#32) := by
  unfold k0_pay11
  -- the reduction along the 64 lanes into the zero word, read at row `r`, is the sum of that row's entries
  refine (Cert.RowOps.rowSum_apply _ _ _ _ _ r).trans ?_
  refine Finset.sum_congr rfl fun l _ => ?_
  -- at (r, l) every operation is entrywise, a per-atom column spread along the lanes reads its row's value, and the
  -- columns and matrices read as above; what is left is the pair term, product by product and sum by sum
  simp only [mulf_apply, addf_apply, divf_apply, maximumf_apply, sqrt_apply, broadcast_apply,
    Cert.RowOps.broadcastTo_a1_ab_apply, pay4_apply, pay5_apply, pay6_apply, pay7_eq, pay8_eq, pay9_eq, pay10_apply]
  rfl

/-- Over the one entry of a column reduced along its rows, the source index with row `k` put back is `(k, 0)`. -/
theorem lift_col (h : S2000x1.Reduces [(0 : Fin 2)] S1) (k : Fin 2000) :
    h.lift (ix1 (0 : Fin 1)) k = ix2 k (0 : Fin 1) := by
  funext c
  apply Fin.ext
  match c with
  | ⟨0, _⟩ => rfl
  | ⟨1, _⟩ => rfl

/-- The accumulator's update: what it held plus the sum of the 2000 row sums. -/
theorem acc_apply (v86 : FVec Ideal S2000 .f32) (v90 : Vec Ideal S1x1 .f32) (y : S1x1.Idx) :
    k0_pay1 (F := Ideal) v86 v90 y = v90 y + ∑ r : Fin 2000, v86 (ix1 r) := by
  unfold k0_pay1
  -- the accumulator is cast to its own shape; the added term does not depend on it
  rw [addf_apply, shapeCast_self]
  refine congrArg (v90 y + ·) ?_
  -- the 1 × 1 result reads the one entry of the reduced vector: both positions are 0
  refine (shapeCast_apply _ _ y (ix1 (0 : Fin 1)) ?_).trans ?_
  · rw [Shape.rowMajor_val_one, Shape.rowMajor_val_two]
    have h0 : (y 0).val < 1 := (y 0).isLt
    have h1 : (y 1).val < 1 := (y 1).isLt
    show (0 : ℕ) = (y 0).val * 1 + (y 1).val
    omega
  -- the reduction of the 2000 × 1 column along its rows into the zero word is the sum of its entries, and the
  -- column's entry at row `k` is the vector's entry at `k`
  refine (Ideal.multiReduction_add_single _ _ _ _ _ _).trans ?_
  refine Finset.sum_congr rfl fun k _ => ?_
  exact (congrArg _ (lift_col _ k)).trans (Cert.RowOps.shapeCast_a_a1_apply v86 _ k 0)

/-- The reset value is zero. -/
theorem zero_apply (y : S1x1.Idx) : k0_pay2 (F := Ideal) y = 0 := Ideal.ofBits_zero_f32

end Cert.KernelIdeal.Pay

end
-- ==== Proof.KernelIdealAcc.lean ====
/-
  What the energy kernel's body leaves in its 1×1 accumulator, point by point.
  At the first grid point the accumulator is zeroed, read back, and left at "zero plus the block's sum"; at every later
  point it is left at "what the point before left plus the block's sum". So after point n it holds the sum of the
  block sums 0 … n.
-/
import proofs.«147298_j47991964566172_1_alg».proof.Proof.KernelIdealFrame
import proofs.«147298_j47991964566172_1_alg».proof.Proof.KernelIdealBlocks
import proofs.«147298_j47991964566172_1_alg».proof.Proof.KernelIdealPayload
import Idealize.ShloMosaic.Lib.Pipeline.Value
import Idealize.ShloMosaic.Lib.Tactic

set_option maxRecDepth 16384

noncomputable section

open scoped BigOperators

open Idealize.ShloMosaic Idealize.ShloMosaic.TcCoe Idealize.SL.Sem
open Idealize.ShloMosaic.Pipeline (Dat)

namespace Cert.KernelIdeal.Val

open Cert.KernelIdeal Cert.KernelIdeal.Gen Cert.KernelIdeal.Hand Idealize.ShloMosaic.ValueIdx

variable {F : FTy → Type} [FloatOps F]

theorem hz : (![0, 0] : Fin 2 → Nat) = fun _ => 0 := funext fun a => by fin_cases a <;> rfl

/-- A whole-buffer load of a whole staging buffer is its contents. -/
theorem rd6 (a : Memref sig .tc .vmem S2000x6 .f32) (h : a.IsWhole) (x : Vec F S2000x6 .f32) :
    View.readAt (Elt F) a.view (Rect.unit (s := S2000x6) ![0, 0] S2000x6.size inb_S2000x6_S2000x6_0_0).toLoadRect (h.unread x) = x := by
  simp only [View.readAt_eq_ld, h.read_unread, View.ld_unit_zero (S := S2000x6) hz]
theorem rd64 (a : Memref sig .tc .vmem S2000x64 .f32) (h : a.IsWhole) (x : Vec F S2000x64 .f32) :
    View.readAt (Elt F) a.view (Rect.unit (s := S2000x64) ![0, 0] S2000x64.size inb_S2000x64_S2000x64_0_0).toLoadRect (h.unread x) = x := by
  simp only [View.readAt_eq_ld, h.read_unread, View.ld_unit_zero (S := S2000x64) hz]
theorem rd64i (a : Memref sig .tc .vmem S2000x64 .i32) (h : a.IsWhole) (x : Vec F S2000x64 .i32) :
    View.readAt (Elt F) a.view (Rect.unit (s := S2000x64) ![0, 0] S2000x64.size inb_S2000x64_S2000x64_0_0).toLoadRect (h.unread x) = x := by
  simp only [View.readAt_eq_ld, h.read_unread, View.ld_unit_zero (S := S2000x64) hz]
theorem rd1 (a : Memref sig .tc .vmem S1x1 .f32) (h : a.IsWhole) (x : Vec F S1x1 .f32) :
    View.readAt (Elt F) a.view (Rect.unit (s := S1x1) ![0, 0] S1x1.size inb_S1x1_S1x1_0_0).toLoadRect (h.unread x) = x := by
  simp only [View.readAt_eq_ld, h.read_unread, View.ld_unit_zero (S := S1x1) hz]

/-- Not at the first point: the body's one store leaves "what the accumulator held plus the block's sum". -/
theorem out_B (c : Dev nD) (i : grid0.Coords) (a1 : Memref sig .tc .vmem S2000x6 .f32) (h1 : a1.IsWhole) (a2 : Memref sig .tc .vmem S2000x64 .f32) (h2 : a2.IsWhole) (a3 : Memref sig .tc .vmem S2000x64 .f32) (h3 : a3.IsWhole) (a4 : Memref sig .tc .vmem S2000x64 .f32) (h4 : a4.IsWhole) (a5 : Memref sig .tc .vmem S2000x64 .f32) (h5 : a5.IsWhole) (a6 : Memref sig .tc .vmem S2000x64 .f32) (h6 : a6.IsWhole) (a7 : Memref sig .tc .vmem S2000x64 .f32) (h7 : a7.IsWhole) (a8 : Memref sig .tc .vmem S2000x64 .i32) (h8 : a8.IsWhole) (a9 : Memref sig .tc .vmem S1x1 .f32) (h9 : a9.IsWhole) (hc : ¬cond0_0 i) (x0 : Vec F S2000x6 .f32) (x1 : Vec F S2000x64 .f32) (x2 : Vec F S2000x64 .f32) (x3 : Vec F S2000x64 .f32) (x4 : Vec F S2000x64 .f32) (x5 : Vec F S2000x64 .f32) (x6 : Vec F S2000x64 .f32) (x7 : Vec F S2000x64 .i32) (xo : Vec F S1x1 .f32) :
    out0_B_8 c i a1 h1 a2 h2 a3 h3 a4 h4 a5 h5 a6 h6 a7 h7 a8 h8 a9 h9 hc x0 x1 x2 x3 x4 x5 x6 x7 xo = k0_pay1 (rows x0 x1 x2 x3 x4 x5 x6 x7) xo := by
  unfold out0_B_8
  rw [View.read_writes_eq_canon _ _ _ (cover0_B_8 c i a1 h1 a2 h2 a3 h3 a4 h4 a5 h5 a6 h6 a7 h7 a8 h8 a9 h9 hc x0 x1 x2 x3 x4 x5 x6 x7 xo)]
  unfold kernelRun0_B
  dsimp only
  rw [View.canon_unit_zero hz]
  unfold rows
  congr 1
  · sl_unfold_words
    rw [rd6, rd64, rd64, rd64, rd64, rd64, rd64, rd64i]
  · exact rd1 a9 h9 xo

/-- At the first point: the accumulator is zeroed, read back, and left at "zero plus the block's sum". -/
theorem out_A (c : Dev nD) (i : grid0.Coords) (a1 : Memref sig .tc .vmem S2000x6 .f32) (h1 : a1.IsWhole) (a2 : Memref sig .tc .vmem S2000x64 .f32) (h2 : a2.IsWhole) (a3 : Memref sig .tc .vmem S2000x64 .f32) (h3 : a3.IsWhole) (a4 : Memref sig .tc .vmem S2000x64 .f32) (h4 : a4.IsWhole) (a5 : Memref sig .tc .vmem S2000x64 .f32) (h5 : a5.IsWhole) (a6 : Memref sig .tc .vmem S2000x64 .f32) (h6 : a6.IsWhole) (a7 : Memref sig .tc .vmem S2000x64 .f32) (h7 : a7.IsWhole) (a8 : Memref sig .tc .vmem S2000x64 .i32) (h8 : a8.IsWhole) (a9 : Memref sig .tc .vmem S1x1 .f32) (h9 : a9.IsWhole) (hc : cond0_0 i) (x0 : Vec F S2000x6 .f32) (x1 : Vec F S2000x64 .f32) (x2 : Vec F S2000x64 .f32) (x3 : Vec F S2000x64 .f32) (x4 : Vec F S2000x64 .f32) (x5 : Vec F S2000x64 .f32) (x6 : Vec F S2000x64 .f32) (x7 : Vec F S2000x64 .i32) :
    out0_A_8 c i a1 h1 a2 h2 a3 h3 a4 h4 a5 h5 a6 h6 a7 h7 a8 h8 a9 h9 hc x0 x1 x2 x3 x4 x5 x6 x7 = k0_pay1 (rows x0 x1 x2 x3 x4 x5 x6 x7) (k0_pay2 (F := F)) := by
  unfold out0_A_8
  rw [View.read_writes_eq_canon _ _ _ (cover0_A_8 c i a1 h1 a2 h2 a3 h3 a4 h4 a5 h5 a6 h6 a7 h7 a8 h8 a9 h9 hc x0 x1 x2 x3 x4 x5 x6 x7)]
  unfold kernelRun0_A
  dsimp only
  sl_unfold_words
  rw [View.canon_cons_unit_zero (S := S1x1) hz, View.readCov_unit_zero (S := S1x1) _ hz]
  unfold rows
  congr 1
  rw [rd6, rd64, rd64, rd64, rd64, rd64, rd64, rd64i]

variable (m : (ℓ : Loc nD τ sig) → Buf (Elt Ideal) ℓ)

/-- The accumulator after the first point. -/
theorem outsAt_zero (c : Dev nD) (h : 0 < cfg0.N) :
    outsAt0 m c 0 h = k0_pay1 (rows (F := Ideal) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩)) (k0_pay2 (F := Ideal)) :=
  (outsAt0_A m c ⟨0, h⟩ rfl).trans (out_A ..)

/-- The accumulator after a later point, from what the point before left. -/
theorem outsAt_succ (c : Dev nD) (n : ℕ) (h : n + 1 < cfg0.N) :
    outsAt0 m c (n + 1) h = k0_pay1 (rows (F := Ideal) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩)) (outsAt0 m c n (Nat.lt_of_succ_lt h)) := by
  have hN : cfg0.N = 50 := N_0
  have hB : ¬(⟨n + 1, h⟩ : Fin cfg0.N).val % 50 = 0 := by dsimp only; omega
  exact (outsAt0_B m c ⟨n + 1, h⟩ hB).trans (out_B ..)

/-- After point `n` the accumulator holds the sum of the blocks 0 … n. -/
theorem outsAt_eq (c : Dev nD) (y : S1x1.Idx) : ∀ (n : ℕ) (h : n < cfg0.N),
    outsAt0 m c n h y = ∑ s ∈ Finset.range (n + 1), blockSumN m c s
  | 0, h => by
    have e : blockSumN m c 0 = blockSum m c ⟨0, h⟩ := dif_pos h
    rw [outsAt_zero m c h, Cert.KernelIdeal.Pay.acc_apply, Cert.KernelIdeal.Pay.zero_apply, zero_add, Finset.sum_range_one, e]
    rfl
  | n + 1, h => by
    have e : blockSumN m c (n + 1) = blockSum m c ⟨n + 1, h⟩ := dif_pos h
    rw [outsAt_succ m c n h, Cert.KernelIdeal.Pay.acc_apply, outsAt_eq c y n, Finset.sum_range_succ _ (n + 1), e]
    rfl

end Cert.KernelIdeal.Val

end
-- ==== Proof.KernelIdealHost.lean ====
/-
  What the energy kernel's operand arrays hold when the region is entered, as functions of the program's arguments:
  the six per-atom columns (x, y, z, c6, α, rr), the neighbour's coordinates gathered by the clamped index, the
  neighbour's c6, α and rr as gathers of the argument arrays, and the mask widened to 32 bits; and the block of each
  array at a grid point: rows 2000·t … 2000·t + 1999.
-/
import proofs.«147298_j47991964566172_1_alg».proof.Proof.KernelIdealShared
import proofs.«147298_j47991964566172_1_alg».proof.Proof.EnergySpec
import Idealize.ShloMosaic.Lib.ValueLayout
import Idealize.ShloMosaic.Lib.Pipeline.Value
import Idealize.ShloMosaic.Lib.StableHlo.Run

noncomputable section

namespace Cert.KernelIdeal.HostV

open Cert.KernelIdeal Cert.KernelIdeal.Gen Cert.KernelIdeal.Hand Idealize.ShloMosaic Idealize.ShloMosaic.TcCoe Idealize.ShloMosaic.ValueIdx Idealize.SL.Sem

/-- rr of every atom: the table r4r2 at the atom's number (negative numbers wrapped once, then clamped by the gather). -/
def rrOf (a3 : FVec Ideal S119 .f32) (a5 : IVec S100000 32) : FVec Ideal S100000 .f32 :=
  Host.gather gather_S119_S100000x1_S100000_n_0_n_n_0_1_1 a3 (broadcastInDim S100000x1 ![0] bcast_S100000_S100000x1_0 (select (cmpi .slt a5 (broadcastInDim S100000 ![] bcast_S_S100000 (constantI S_ 32 0#32))) (addi a5 (broadcastInDim S100000 ![] bcast_S_S100000 (constantI S_ 32 119#32))) a5))

/-- The neighbour index words, negative ones wrapped once, as the gathers' start indices. -/
def nidxOf (a4 : IVec S100000x64 32) : IVec S100000x64x1 32 :=
  broadcastInDim S100000x64x1 ![0, 1] bcast_S100000x64_S100000x64x1_0_1 (select (cmpi .slt a4 (broadcastInDim S100000x64 ![] bcast_S_S100000x64 (constantI S_ 32 0#32))) (addi a4 (broadcastInDim S100000x64 ![] bcast_S_S100000x64 (constantI S_ 32 100000#32))) a4)

/-- A per-atom array gathered at the neighbour indices. -/
def gatherOf (x : FVec Ideal S100000 .f32) (nidx : IVec S100000x64x1 32) : FVec Ideal S100000x64 .f32 :=
  Host.gather gather_S100000_S100000x64x1_S100000x64_n_0_n_n_0_2_1 x nidx

section Tup
variable {nD : Nat} {τ : Topo} {sig : RefSig} {Val : EltTy → Type}

/-- A six-entry dependent tuple, given entry by entry. -/
def tup6 {β : Fin 6 → Type} (b0 : β 0) (b1 : β 1) (b2 : β 2) (b3 : β 3) (b4 : β 4) (b5 : β 5) : (k : Fin 6) → β k
  | ⟨0, _⟩ => b0 | ⟨1, _⟩ => b1 | ⟨2, _⟩ => b2 | ⟨3, _⟩ => b3 | ⟨4, _⟩ => b4 | ⟨5, _⟩ => b5
  | ⟨k + 6, h⟩ => absurd h (by omega)

/-- A six-operand operation's result at its own buffer: its function of the six operands' contents, each at its own
    reference. -/
theorem nary6_result {x0 x1 x2 x3 x4 x5 y : Ref sig .tc}
    (f : ((k : Fin 6) → ((![x0, x1, x2, x3, x4, x5] : Fin 6 → Ref sig .tc) k).ty.Contents Val) → y.ty.Contents Val) (hxs hy)
    (F : Valuation τ sig Val) :
    (StableHlo.nary (τ := τ) ![x0, x1, x2, x3, x4, x5] y f hxs hy).result F (no_index (Proc.devRef .tc y))
      = f (tup6 (β := fun k => ((![x0, x1, x2, x3, x4, x5] : Fin 6 → Ref sig .tc) k).ty.Contents Val)
          (F (Proc.devRef .tc x0)) (F (Proc.devRef .tc x1)) (F (Proc.devRef .tc x2)) (F (Proc.devRef .tc x3)) (F (Proc.devRef .tc x4)) (F (Proc.devRef .tc x5))) := by
  rw [StableHlo.nary_result]; congr 1; funext k; fin_cases k <;> rfl
end Tup

open Idealize.ShloMosaic.StableHlo in
/-- What a buffer holds after the host lines: at a line's own result buffer the line's function of its operands, at any other buffer what was there before the line. -/
macro "host_results" : tactic =>
  `(tactic| (simp (disch := decide) only [after_cons, after_nil,
      nullary_result', unary_result', binary_result', ternary_result', reshape_result', nary6_result,
      nullary_result_ne', unary_result_ne', binary_result_ne', ternary_result_ne', reshape_result_ne',
      nary_result_ne']))

section Idx
variable {α : Type}

/-- Column `k` of a [100000, 3] table, cut out as a [100000, 1] slice and reshaped to a vector, read at `n`. -/
theorem col_apply (o : Nat) (X : S100000x3.Idx → α) (h : S100000x3.Slices ![0, o] S100000x1) (h' : S100000x1.ShapeCasts S100000)
    (n : Fin 100000) (k : Fin 3) (hk : k.val = o) :
    shapeCast S100000 (extractStridedSlice S100000x1 ![0, o] X h) h' (ix1 n) = X (ix2 n k) := by
  refine (shapeCast_apply _ h' (ix1 n) (ix2 n (0 : Fin 1)) ?_).trans ?_
  · rw [Shape.rowMajor_val_two, Shape.rowMajor_val_one]; show n.val * 1 + 0 = n.val; omega
  · exact slice2_axis1_apply o X h n 0 k (by show k.val = o + 0; omega)

/-- A vector spread as a [100000, 1] column, read at row `n`. -/
theorem bcol_apply (x : S100000.Idx → α) (h : S100000.BroadcastsInDim S100000x1 (![0] : Fin 1 → Fin S100000x1.rank))
    (n : Fin 100000) (z : Fin 1) : broadcastInDim S100000x1 ![0] h x (ix2 n z) = x (ix1 n) :=
  broadcastInDim_apply _ h x _ _ (fun a => by match a with | ⟨0, _⟩ => rfl)

/-- A per-atom vector gathered at the neighbour index words, read at (atom, slot): the vector at the word's row. -/
theorem gather_row_apply (x : S100000.Idx → α) (idx : IVec S100000x64x1 32) (n : Fin 100000) (l : Fin 64) :
    Host.gather gather_S100000_S100000x64x1_S100000x64_n_0_n_n_0_2_1 x idx (ix2 n l) = x (ix1 (Cert.Energy.row (idx (ix3 n l 0)))) := by
  refine (gather_take_apply (N := 100000) (R := 100000) (C := 64) (by decide) gather_S100000_S100000x64x1_S100000x64_n_0_n_n_0_2_1_wf x idx (ix2 n l)).trans ?_
  have e : takeIdx (ix2 n l) = ix3 n l 0 := by
    funext a; match a with | ⟨0, _⟩ => rfl | ⟨1, _⟩ => rfl | ⟨2, _⟩ => rfl
  refine congrArg (fun j => x (ix1 j)) (Fin.ext ?_)
  show min (idx (takeIdx (ix2 n l))).toInt.toNat (100000 - 1) = min (idx (ix3 n l 0)).toInt.toNat (100000 - 1)
  rw [e]

/-- Six [100000, 1] columns laid side by side, read at (row, column): that column at the row. -/
theorem concat6_apply (u0 u1 u2 u3 u4 u5 : S100000x1.Idx → α)
    (h : Shape.Concatenates ([(⟨S100000x1, u0⟩ : (s : Shape) × (s.Idx → α)), ⟨S100000x1, u1⟩, ⟨S100000x1, u2⟩, ⟨S100000x1, u3⟩, ⟨S100000x1, u4⟩, ⟨S100000x1, u5⟩].map (·.1)) S100000x6 1)
    (n : Fin 100000) :
    concatenate S100000x6 1 [⟨S100000x1, u0⟩, ⟨S100000x1, u1⟩, ⟨S100000x1, u2⟩, ⟨S100000x1, u3⟩, ⟨S100000x1, u4⟩, ⟨S100000x1, u5⟩] h (ix2 n 0) = u0 (ix2 n 0)
    ∧ concatenate S100000x6 1 [⟨S100000x1, u0⟩, ⟨S100000x1, u1⟩, ⟨S100000x1, u2⟩, ⟨S100000x1, u3⟩, ⟨S100000x1, u4⟩, ⟨S100000x1, u5⟩] h (ix2 n 1) = u1 (ix2 n 0)
    ∧ concatenate S100000x6 1 [⟨S100000x1, u0⟩, ⟨S100000x1, u1⟩, ⟨S100000x1, u2⟩, ⟨S100000x1, u3⟩, ⟨S100000x1, u4⟩, ⟨S100000x1, u5⟩] h (ix2 n 2) = u2 (ix2 n 0)
    ∧ concatenate S100000x6 1 [⟨S100000x1, u0⟩, ⟨S100000x1, u1⟩, ⟨S100000x1, u2⟩, ⟨S100000x1, u3⟩, ⟨S100000x1, u4⟩, ⟨S100000x1, u5⟩] h (ix2 n 3) = u3 (ix2 n 0)
    ∧ concatenate S100000x6 1 [⟨S100000x1, u0⟩, ⟨S100000x1, u1⟩, ⟨S100000x1, u2⟩, ⟨S100000x1, u3⟩, ⟨S100000x1, u4⟩, ⟨S100000x1, u5⟩] h (ix2 n 4) = u4 (ix2 n 0)
    ∧ concatenate S100000x6 1 [⟨S100000x1, u0⟩, ⟨S100000x1, u1⟩, ⟨S100000x1, u2⟩, ⟨S100000x1, u3⟩, ⟨S100000x1, u4⟩, ⟨S100000x1, u5⟩] h (ix2 n 5) = u5 (ix2 n 0) := by
  refine ⟨?_, ?_, ?_, ?_, ?_, ?_⟩
  · refine concatenate_apply_piece 1 _ h (ix2 n 0) 0 (by show 0 < 6; omega) S100000x1 u0 rfl rfl 0 rfl (ix2 n 0) ?_ rfl
    intro b hb; match b with | ⟨0, _⟩ => rfl | ⟨1, _⟩ => exact absurd rfl hb
  · refine concatenate_apply_piece 1 _ h (ix2 n 1) 1 (by show 1 < 6; omega) S100000x1 u1 rfl rfl 1 rfl (ix2 n 0) ?_ rfl
    intro b hb; match b with | ⟨0, _⟩ => rfl | ⟨1, _⟩ => exact absurd rfl hb
  · refine concatenate_apply_piece 1 _ h (ix2 n 2) 2 (by show 2 < 6; omega) S100000x1 u2 rfl rfl 2 rfl (ix2 n 0) ?_ rfl
    intro b hb; match b with | ⟨0, _⟩ => rfl | ⟨1, _⟩ => exact absurd rfl hb
  · refine concatenate_apply_piece 1 _ h (ix2 n 3) 3 (by show 3 < 6; omega) S100000x1 u3 rfl rfl 3 rfl (ix2 n 0) ?_ rfl
    intro b hb; match b with | ⟨0, _⟩ => rfl | ⟨1, _⟩ => exact absurd rfl hb
  · refine concatenate_apply_piece 1 _ h (ix2 n 4) 4 (by show 4 < 6; omega) S100000x1 u4 rfl rfl 4 rfl (ix2 n 0) ?_ rfl
    intro b hb; match b with | ⟨0, _⟩ => rfl | ⟨1, _⟩ => exact absurd rfl hb
  · refine concatenate_apply_piece 1 _ h (ix2 n 5) 5 (by show 5 < 6; omega) S100000x1 u5 rfl rfl 5 rfl (ix2 n 0) ?_ rfl
    intro b hb; match b with | ⟨0, _⟩ => rfl | ⟨1, _⟩ => exact absurd rfl hb

end Idx

variable (m : (ℓ : Loc nD τ sig) → Buf (Elt Ideal) ℓ)

abbrev a0 (c : Dev nD) : FVec Ideal S100000x3 .f32 := m ((c.tc : Thread nD τ).loc main_arg0)
abbrev a1 (c : Dev nD) : FVec Ideal S100000 .f32 := m ((c.tc : Thread nD τ).loc main_arg1)
abbrev a2 (c : Dev nD) : FVec Ideal S100000 .f32 := m ((c.tc : Thread nD τ).loc main_arg2)
abbrev a3 (c : Dev nD) : FVec Ideal S119 .f32 := m ((c.tc : Thread nD τ).loc main_arg3)
abbrev a4 (c : Dev nD) : IVec S100000x64 32 := m ((c.tc : Thread nD τ).loc main_arg4)
abbrev a5 (c : Dev nD) : IVec S100000 32 := m ((c.tc : Thread nD τ).loc main_arg5)
abbrev a6 (c : Dev nD) : IVec S100000x64 1 := m ((c.tc : Thread nD τ).loc main_arg6)

set_option maxHeartbeats 4000000 in
/-- The six per-atom columns of the stacked array. -/
theorem V_feat (c : Dev nD) (n : Fin 100000) :
    (V m c main_v19 : FVec Ideal S100000x6 .f32) (ix2 n 0) = a0 m c (ix2 n 0)
    ∧ (V m c main_v19 : FVec Ideal S100000x6 .f32) (ix2 n 1) = a0 m c (ix2 n 1)
    ∧ (V m c main_v19 : FVec Ideal S100000x6 .f32) (ix2 n 2) = a0 m c (ix2 n 2)
    ∧ (V m c main_v19 : FVec Ideal S100000x6 .f32) (ix2 n 3) = a1 m c (ix1 n)
    ∧ (V m c main_v19 : FVec Ideal S100000x6 .f32) (ix2 n 4) = a2 m c (ix1 n)
    ∧ (V m c main_v19 : FVec Ideal S100000x6 .f32) (ix2 n 5) = rrOf (a3 m c) (a5 m c) (ix1 n) := by
  dsimp only [V, V0]
  simp only [hostOps0, List.flatten_cons, List.flatten_nil, List.append_nil]
  host_results
  refine ⟨?_, ?_, ?_, ?_, ?_, ?_⟩
  · refine ((concat6_apply _ _ _ _ _ _ _ n).1).trans ?_
    show broadcastInDim S100000x1 ![0] bcast_S100000_S100000x1_0 (shapeCast S100000 (extractStridedSlice S100000x1 ![0, 0] (a0 m c) slices_S100000x3_S100000x1_0_0) shapeCasts_S100000x1_S100000) (ix2 n 0) = _
    exact (bcol_apply _ _ n 0).trans (col_apply 0 _ _ _ n 0 rfl)
  · refine ((concat6_apply _ _ _ _ _ _ _ n).2.1).trans ?_
    show broadcastInDim S100000x1 ![0] bcast_S100000_S100000x1_0 (shapeCast S100000 (extractStridedSlice S100000x1 ![0, 1] (a0 m c) slices_S100000x3_S100000x1_0_1) shapeCasts_S100000x1_S100000) (ix2 n 0) = _
    exact (bcol_apply _ _ n 0).trans (col_apply 1 _ _ _ n 1 rfl)
  · refine ((concat6_apply _ _ _ _ _ _ _ n).2.2.1).trans ?_
    show broadcastInDim S100000x1 ![0] bcast_S100000_S100000x1_0 (shapeCast S100000 (extractStridedSlice S100000x1 ![0, 2] (a0 m c) slices_S100000x3_S100000x1_0_2) shapeCasts_S100000x1_S100000) (ix2 n 0) = _
    exact (bcol_apply _ _ n 0).trans (col_apply 2 _ _ _ n 2 rfl)
  · refine ((concat6_apply _ _ _ _ _ _ _ n).2.2.2.1).trans ?_
    show broadcastInDim S100000x1 ![0] bcast_S100000_S100000x1_0 (a1 m c) (ix2 n 0) = _
    exact bcol_apply _ _ n 0
  · refine ((concat6_apply _ _ _ _ _ _ _ n).2.2.2.2.1).trans ?_
    show broadcastInDim S100000x1 ![0] bcast_S100000_S100000x1_0 (a2 m c) (ix2 n 0) = _
    exact bcol_apply _ _ n 0
  · refine ((concat6_apply _ _ _ _ _ _ _ n).2.2.2.2.2).trans ?_
    show broadcastInDim S100000x1 ![0] bcast_S100000_S100000x1_0 (rrOf (a3 m c) (a5 m c)) (ix2 n 0) = _
    exact bcol_apply _ _ n 0

set_option maxHeartbeats 4000000 in
/-- The neighbour's coordinates: the coordinate table's row at the clamped index. -/
theorem V_xj (c : Dev nD) (n : Fin 100000) (l : Fin 64) :
    (V m c main_v26 : FVec Ideal S100000x64 .f32) (ix2 n l) = a0 m c (ix2 (Cert.Energy.row (nidxOf (a4 m c) (ix3 n l 0))) 0) := by
  dsimp only [V, V0]
  simp only [hostOps0, List.flatten_cons, List.flatten_nil, List.append_nil]
  host_results
  exact (gather_row_apply _ _ n l).trans (col_apply 0 _ _ _ _ 0 rfl)
set_option maxHeartbeats 4000000 in
theorem V_yj (c : Dev nD) (n : Fin 100000) (l : Fin 64) :
    (V m c main_v33 : FVec Ideal S100000x64 .f32) (ix2 n l) = a0 m c (ix2 (Cert.Energy.row (nidxOf (a4 m c) (ix3 n l 0))) 1) := by
  dsimp only [V, V0]
  simp only [hostOps0, List.flatten_cons, List.flatten_nil, List.append_nil]
  host_results
  exact (gather_row_apply _ _ n l).trans (col_apply 1 _ _ _ _ 1 rfl)
set_option maxHeartbeats 4000000 in
theorem V_zj (c : Dev nD) (n : Fin 100000) (l : Fin 64) :
    (V m c main_v40 : FVec Ideal S100000x64 .f32) (ix2 n l) = a0 m c (ix2 (Cert.Energy.row (nidxOf (a4 m c) (ix3 n l 0))) 2) := by
  dsimp only [V, V0]
  simp only [hostOps0, List.flatten_cons, List.flatten_nil, List.append_nil]
  host_results
  exact (gather_row_apply _ _ n l).trans (col_apply 2 _ _ _ _ 2 rfl)

set_option maxHeartbeats 4000000 in
/-- The neighbour's c6, α and rr: gathers of the argument arrays (kept whole: the reference makes the same gathers). -/
theorem V_c6j (c : Dev nD) : (V m c main_v47 : FVec Ideal S100000x64 .f32) = gatherOf (a1 m c) (nidxOf (a4 m c)) := by
  dsimp only [V, V0]
  simp only [hostOps0, List.flatten_cons, List.flatten_nil, List.append_nil]
  host_results
  rfl
set_option maxHeartbeats 4000000 in
theorem V_aj (c : Dev nD) : (V m c main_v54 : FVec Ideal S100000x64 .f32) = gatherOf (a2 m c) (nidxOf (a4 m c)) := by
  dsimp only [V, V0]
  simp only [hostOps0, List.flatten_cons, List.flatten_nil, List.append_nil]
  host_results
  rfl
set_option maxHeartbeats 4000000 in
theorem V_rrj (c : Dev nD) : (V m c main_v61 : FVec Ideal S100000x64 .f32) = gatherOf (rrOf (a3 m c) (a5 m c)) (nidxOf (a4 m c)) := by
  dsimp only [V, V0]
  simp only [hostOps0, List.flatten_cons, List.flatten_nil, List.append_nil]
  host_results
  rfl

set_option maxHeartbeats 4000000 in
/-- The mask, widened to 32 bits. -/
theorem V_mask (c : Dev nD) (n : Fin 100000) (l : Fin 64) :
    (V m c main_v62 : IVec S100000x64 32) (ix2 n l) = (a6 m c (ix2 n l)).setWidth 32 := by
  dsimp only [V, V0]
  simp only [hostOps0, List.flatten_cons, List.flatten_nil, List.append_nil]
  host_results
  rfl

/-! ## Blocks: rows 2000·t … 2000·t + 1999 of the array -/

theorem row_lt (t : Fin cfg0.N) (r : Fin 2000) : 2000 * t.val + r.val < 100000 := by
  have : t.val < 50 := lt_of_lt_of_eq t.isLt (show cfg0.N = 50 from N_0)
  omega

/-- The printed index maps, decided once over the grid: every operand's block at point `t` is block row `t`, block column 0. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

theorem iblk0_apply (c : Dev nD) (t : Fin cfg0.N) (r : Fin 2000) (k : Fin 6) :
    (iblk m c 0 t : Vec Ideal S2000x6 .f32) (ix2 r k) = (V m c main_v19 : FVec Ideal S100000x6 .f32) (ix2 ⟨2000 * t.val + r.val, row_lt t r⟩ k) := by
  unfold iblk
  show V m c main_v19 (((cfg0.win 0).blk t).view.emb (ix2 r k)) = V m c main_v19 (ix2 ⟨2000 * t.val + r.val, row_lt t r⟩ k)
  refine congrArg (V m c main_v19) ?_
  obtain ⟨e0, e1⟩ := (idx_facts t).1
  funext a; apply Fin.ext
  match a with
  | ⟨0, _⟩ => show win0_0.index t (0 : Fin 2) * 2000 + 1 * r.val = 2000 * t.val + r.val; omega
  | ⟨1, _⟩ => show win0_0.index t (1 : Fin 2) * 6 + 1 * k.val = k.val; omega
theorem iblk1_apply (c : Dev nD) (t : Fin cfg0.N) (r : Fin 2000) (l : Fin 64) :
    (iblk m c 1 t : Vec Ideal S2000x64 .f32) (ix2 r l) = (V m c main_v26 : FVec Ideal S100000x64 .f32) (ix2 ⟨2000 * t.val + r.val, row_lt t r⟩ l) := by
  unfold iblk
  show V m c main_v26 (((cfg0.win 1).blk t).view.emb (ix2 r l)) = V m c main_v26 (ix2 ⟨2000 * t.val + r.val, row_lt t r⟩ l)
  refine congrArg (V m c main_v26) ?_
  obtain ⟨e0, e1⟩ := (idx_facts t).2.1
  funext a; apply Fin.ext
  match a with
  | ⟨0, _⟩ => show win0_1.index t (0 : Fin 2) * 2000 + 1 * r.val = 2000 * t.val + r.val; omega
  | ⟨1, _⟩ => show win0_1.index t (1 : Fin 2) * 64 + 1 * l.val = l.val; omega
theorem iblk2_apply (c : Dev nD) (t : Fin cfg0.N) (r : Fin 2000) (l : Fin 64) :
    (iblk m c 2 t : Vec Ideal S2000x64 .f32) (ix2 r l) = (V m c main_v33 : FVec Ideal S100000x64 .f32) (ix2 ⟨2000 * t.val + r.val, row_lt t r⟩ l) := by
  unfold iblk
  show V m c main_v33 (((cfg0.win 2).blk t).view.emb (ix2 r l)) = V m c main_v33 (ix2 ⟨2000 * t.val + r.val, row_lt t r⟩ l)
  refine congrArg (V m c main_v33) ?_
  obtain ⟨e0, e1⟩ := (idx_facts t).2.2.1
  funext a; apply Fin.ext
  match a with
  | ⟨0, _⟩ => show win0_2.index t (0 : Fin 2) * 2000 + 1 * r.val = 2000 * t.val + r.val; omega
  | ⟨1, _⟩ => show win0_2.index t (1 : Fin 2) * 64 + 1 * l.val = l.val; omega
theorem iblk3_apply (c : Dev nD) (t : Fin cfg0.N) (r : Fin 2000) (l : Fin 64) :
    (iblk m c 3 t : Vec Ideal S2000x64 .f32) (ix2 r l) = (V m c main_v40 : FVec Ideal S100000x64 .f32) (ix2 ⟨2000 * t.val + r.val, row_lt t r⟩ l) := by
  unfold iblk
  show V m c main_v40 (((cfg0.win 3).blk t).view.emb (ix2 r l)) = V m c main_v40 (ix2 ⟨2000 * t.val + r.val, row_lt t r⟩ l)
  refine congrArg (V m c main_v40) ?_
  obtain ⟨e0, e1⟩ := (idx_facts t).2.2.2.1
  funext a; apply Fin.ext
  match a with
  | ⟨0, _⟩ => show win0_3.index t (0 : Fin 2) * 2000 + 1 * r.val = 2000 * t.val + r.val; omega
  | ⟨1, _⟩ => show win0_3.index t (1 : Fin 2) * 64 + 1 * l.val = l.val; omega
theorem iblk4_apply (c : Dev nD) (t : Fin cfg0.N) (r : Fin 2000) (l : Fin 64) :
    (iblk m c 4 t : Vec Ideal S2000x64 .f32) (ix2 r l) = (V m c main_v47 : FVec Ideal S100000x64 .f32) (ix2 ⟨2000 * t.val + r.val, row_lt t r⟩ l) := by
  unfold iblk
  show V m c main_v47 (((cfg0.win 4).blk t).view.emb (ix2 r l)) = V m c main_v47 (ix2 ⟨2000 * t.val + r.val, row_lt t r⟩ l)
  refine congrArg (V m c main_v47) ?_
  obtain ⟨e0, e1⟩ := (idx_facts t).2.2.2.2.1
  funext a; apply Fin.ext
  match a with
  | ⟨0, _⟩ => show win0_4.index t (0 : Fin 2) * 2000 + 1 * r.val = 2000 * t.val + r.val; omega
  | ⟨1, _⟩ => show win0_4.index t (1 : Fin 2) * 64 + 1 * l.val = l.val; omega
theorem iblk5_apply (c : Dev nD) (t : Fin cfg0.N) (r : Fin 2000) (l : Fin 64) :
    (iblk m c 5 t : Vec Ideal S2000x64 .f32) (ix2 r l) = (V m c main_v54 : FVec Ideal S100000x64 .f32) (ix2 ⟨2000 * t.val + r.val, row_lt t r⟩ l) := by
  unfold iblk
  show V m c main_v54 (((cfg0.win 5).blk t).view.emb (ix2 r l)) = V m c main_v54 (ix2 ⟨2000 * t.val + r.val, row_lt t r⟩ l)
  refine congrArg (V m c main_v54) ?_
  obtain ⟨e0, e1⟩ := (idx_facts t).2.2.2.2.2.1
  funext a; apply Fin.ext
  match a with
  | ⟨0, _⟩ => show win0_5.index t (0 : Fin 2) * 2000 + 1 * r.val = 2000 * t.val + r.val; omega
  | ⟨1, _⟩ => show win0_5.index t (1 : Fin 2) * 64 + 1 * l.val = l.val; omega
theorem iblk6_apply (c : Dev nD) (t : Fin cfg0.N) (r : Fin 2000) (l : Fin 64) :
    (iblk m c 6 t : Vec Ideal S2000x64 .f32) (ix2 r l) = (V m c main_v61 : FVec Ideal S100000x64 .f32) (ix2 ⟨2000 * t.val + r.val, row_lt t r⟩ l) := by
  unfold iblk
  show V m c main_v61 (((cfg0.win 6).blk t).view.emb (ix2 r l)) = V m c main_v61 (ix2 ⟨2000 * t.val + r.val, row_lt t r⟩ l)
  refine congrArg (V m c main_v61) ?_
  obtain ⟨e0, e1⟩ := (idx_facts t).2.2.2.2.2.2.1
  funext a; apply Fin.ext
  match a with
  | ⟨0, _⟩ => show win0_6.index t (0 : Fin 2) * 2000 + 1 * r.val = 2000 * t.val + r.val; omega
  | ⟨1, _⟩ => show win0_6.index t (1 : Fin 2) * 64 + 1 * l.val = l.val; omega
theorem iblk7_apply (c : Dev nD) (t : Fin cfg0.N) (r : Fin 2000) (l : Fin 64) :
    (iblk m c 7 t : Vec Ideal S2000x64 .i32) (ix2 r l) = (V m c main_v62 : IVec S100000x64 32) (ix2 ⟨2000 * t.val + r.val, row_lt t r⟩ l) := by
  unfold iblk
  show V m c main_v62 (((cfg0.win 7).blk t).view.emb (ix2 r l)) = V m c main_v62 (ix2 ⟨2000 * t.val + r.val, row_lt t r⟩ l)
  refine congrArg (V m c main_v62) ?_
  obtain ⟨e0, e1⟩ := (idx_facts t).2.2.2.2.2.2.2
  funext a; apply Fin.ext
  match a with
  | ⟨0, _⟩ => show win0_7.index t (0 : Fin 2) * 2000 + 1 * r.val = 2000 * t.val + r.val; omega
  | ⟨1, _⟩ => show win0_7.index t (1 : Fin 2) * 64 + 1 * l.val = l.val; omega

end Cert.KernelIdeal.HostV

end
-- ==== Proof.KernelIdealSum.lean ====
/-
  The 50 block sums of the energy kernel add up to the energy: a block's row sums are sums of pair terms of the
  block's numbers, a block's numbers are rows 2000·t … 2000·t + 1999 of the arrays the region finds, those arrays are
  the arguments' columns and gathers, and 50 blocks of 2000 rows are the 100000 atoms.
-/
import proofs.«147298_j47991964566172_1_alg».proof.Proof.KernelIdealBlocks
import proofs.«147298_j47991964566172_1_alg».proof.Proof.KernelIdealPayload
import proofs.«147298_j47991964566172_1_alg».proof.Proof.KernelIdealHost
import proofs.«147298_j47991964566172_1_alg».proof.Proof.EnergySpec

noncomputable section

open scoped BigOperators

open Idealize.ShloMosaic Idealize.ShloMosaic.TcCoe Idealize.SL.Sem

namespace Cert.KernelIdeal.Val

open Cert.KernelIdeal Cert.KernelIdeal.Gen Cert.KernelIdeal.Hand Cert.KernelIdeal.HostV Idealize.ShloMosaic.ValueIdx

variable (m : (ℓ : Loc nD τ sig) → Buf (Elt Ideal) ℓ)

/-- The energy of the arguments as core `c` holds them. -/
abbrev energyOf (c : Dev nD) : EReal :=
  Cert.Energy.energy (a0 m c) (a1 m c) (a2 m c) (rrOf (a3 m c) (a5 m c)) (nidxOf (a4 m c))
    (gatherOf (a1 m c) (nidxOf (a4 m c))) (gatherOf (a2 m c) (nidxOf (a4 m c)))
    (gatherOf (rrOf (a3 m c) (a5 m c)) (nidxOf (a4 m c))) (a6 m c)

/-- A mask bit widened to 32 bits is nonzero exactly when the bit is set. -/
theorem mask_bit (b : BitVec 1) : Scalar.cmpi .ne (b.setWidth 32) 0#32 = b := by
  by_cases h : b = 1#1
  · subst h; rfl
  · have h0 := eq_zero_of_ne_one h
    subst h0; rfl

/-- A block's sum is the sum, over its 2000 rows and the 64 slots, of the pair terms of atoms 2000·t … 2000·t + 1999. -/
theorem blockSum_eq (c : Dev nD) (t : Fin cfg0.N) :
    blockSum m c t = ∑ r : Fin 2000, ∑ l : Fin 64,
      Cert.Energy.pairAt (a0 m c) (a1 m c) (a2 m c) (rrOf (a3 m c) (a5 m c)) (nidxOf (a4 m c))
        (gatherOf (a1 m c) (nidxOf (a4 m c))) (gatherOf (a2 m c) (nidxOf (a4 m c)))
        (gatherOf (rrOf (a3 m c) (a5 m c)) (nidxOf (a4 m c))) (a6 m c) ⟨2000 * t.val + r.val, row_lt t r⟩ l := by
  unfold blockSum rows
  refine Finset.sum_congr rfl fun r _ => ?_
  refine (Cert.KernelIdeal.Pay.rowSums_apply _ _ _ _ _ _ _ _ r).trans ?_
  refine Finset.sum_congr rfl fun l _ => ?_
  unfold Cert.Energy.pairAt
  obtain ⟨f0, f1, f2, f3, f4, f5⟩ := V_feat m c ⟨2000 * t.val + r.val, row_lt t r⟩
  simp only [iblk0_apply, iblk1_apply, iblk2_apply, iblk3_apply, iblk4_apply, iblk5_apply, iblk6_apply, iblk7_apply]
  simp only [f0, f1, f2, f3, f4, f5, V_xj m c ⟨2000 * t.val + r.val, row_lt t r⟩ l, V_yj m c ⟨2000 * t.val + r.val, row_lt t r⟩ l,
    V_zj m c ⟨2000 * t.val + r.val, row_lt t r⟩ l, V_c6j m c, V_aj m c, V_rrj m c, V_mask m c ⟨2000 * t.val + r.val, row_lt t r⟩ l,
    mask_bit]

/-- A grid position's term of the partial sums is its block's sum. -/
theorem blockSumN_eq (c : Dev nD) (t : Fin 50) :
    blockSumN m c t.val = ∑ r : Fin 2000, (fun n : Fin 100000 => ∑ l : Fin 64,
      Cert.Energy.pairAt (a0 m c) (a1 m c) (a2 m c) (rrOf (a3 m c) (a5 m c)) (nidxOf (a4 m c))
        (gatherOf (a1 m c) (nidxOf (a4 m c))) (gatherOf (a2 m c) (nidxOf (a4 m c)))
        (gatherOf (rrOf (a3 m c) (a5 m c)) (nidxOf (a4 m c))) (a6 m c) n l) ⟨2000 * t.val + r.val, by omega⟩ := by
  have hN : cfg0.N = 50 := N_0
  have ht : t.val < cfg0.N := by rw [hN]; exact t.isLt
  unfold blockSumN
  rw [dif_pos ht]
  exact blockSum_eq m c ⟨t.val, ht⟩

/-- The sum of the block sums over the 50 grid positions is the energy. -/
theorem blocks_sum (c : Dev nD) : ∑ s ∈ Finset.range 50, blockSumN m c s = energyOf m c := by
  rw [Finset.sum_range, Finset.sum_congr rfl fun t _ => blockSumN_eq m c t]
  exact Cert.Energy.sum_blocks (fun n : Fin 100000 => ∑ l : Fin 64,
    Cert.Energy.pairAt (a0 m c) (a1 m c) (a2 m c) (rrOf (a3 m c) (a5 m c)) (nidxOf (a4 m c))
      (gatherOf (a1 m c) (nidxOf (a4 m c))) (gatherOf (a2 m c) (nidxOf (a4 m c)))
      (gatherOf (rrOf (a3 m c) (a5 m c)) (nidxOf (a4 m c))) (a6 m c) n l)

end Cert.KernelIdeal.Val

end
-- ==== Proof.KernelIdealValue.lean ====
/-
  What the energy kernel's run leaves in its result, at the ideal instance: after the last grid point the 1×1
  accumulator holds the sum of all 50 block sums, which is the energy; its one write-back puts that in the result
  array; the three host lines after the call reshape it to a scalar and multiply it by the scale constant.
-/
import proofs.«147298_j47991964566172_1_alg».proof.Proof.KernelIdealAcc
import proofs.«147298_j47991964566172_1_alg».proof.Proof.KernelIdealSum
import Idealize.ShloMosaic.Lib.Pipeline.Value
import Idealize.ShloMosaic.Lib.StableHlo.Run
import Idealize.ShloMosaic.Lib.Tactic

set_option maxRecDepth 16384

noncomputable section

open scoped BigOperators

open Idealize.ShloMosaic Idealize.ShloMosaic.TcCoe Idealize.SL.Sem
open Idealize.ShloMosaic.Pipeline (Dat)

namespace Cert.KernelIdeal.Val

open Cert.KernelIdeal Cert.KernelIdeal.Gen Cert.KernelIdeal.Hand Idealize.ShloMosaic.ValueIdx

variable (m : (ℓ : Loc nD τ sig) → Buf (Elt Ideal) ℓ) (ρ : Dev nD → PrngReg)

/-- The last grid point. -/
def tLast : Fin cfg0.N := ⟨49, by rw [show cfg0.N = 50 from N_0]; decide⟩

/-- The accumulator after the last point, as the contents of the 1×1 result array. -/
abbrev result (c : Dev nD) : Buf (Elt Ideal) ((c : Thread nD τ).loc main_v63) := outsAt0 m c tLast.val tLast.isLt

/-- The one write-back, after the last point, writes it: the block is the whole 1×1 array. -/
theorem flushed_eq (c : Dev nD) (t : Fin cfg0.N) (hf : (cfg0.win 8).flush t = true) :
    (dats m 0 c).flushed 8 t = ((cfg0.win 8).blk t).view.read (Elt Ideal) (result m c) := by
  have hN : cfg0.N = 50 := N_0
  have h3 : t.val = 49 := by have := (flush0_8 t).mp hf; have := t.isLt; omega
  obtain rfl : t = tLast := Fin.ext h3
  show (cfg0.win 8).cut (grid0.coords tLast) ((dats m 0 c).after 8 tLast) = _
  rw [after0_8]
  have hz' : (fun a => win0_8.index tLast a * main_v63.ty.shape.size a) = fun _ => 0 := funext fun a => by fin_cases a <;> decide
  exact (Memref.read_access_unit_zero (Elt Ideal) main_v63 hz' (fun a => by rw [congrFun hz' a]; simp) (result m c)).symm

/-- So the result array ends holding the accumulator after the last point. -/
theorem final_o (c : Dev nD) : (dats m 0 c).arrAt 8 cfg0.N = result m c :=
  (dats m 0 c).arrAt_eq_of_cover 8 (result m c) (flushed_eq m c) fun i =>
    ⟨tLast, (flush0_8 tLast).mpr rfl, by
      show i ∈ ((View.whole main_v63).slice (win0_8.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_8.index tLast 0 * win0_8.size 0 ≤ (i 0 : Nat) ∧ (i 0 : Nat) < win0_8.index tLast 0 * win0_8.size 0 + win0_8.xsize (grid0.coords tLast) 0
                  rw [show win0_8.index tLast 0 * win0_8.size 0 = 0 from by decide +kernel, show win0_8.xsize (grid0.coords tLast) 0 = 1 from by decide +kernel]; omega
      | ⟨1, _⟩ => show win0_8.index tLast 1 * win0_8.size 1 ≤ (i 1 : Nat) ∧ (i 1 : Nat) < win0_8.index tLast 1 * win0_8.size 1 + win0_8.xsize (grid0.coords tLast) 1
                  rw [show win0_8.index tLast 1 * win0_8.size 1 = 0 from by decide +kernel, show win0_8.xsize (grid0.coords tLast) 1 = 1 from by decide +kernel]; omega⟩

/-- Every entry (there is one) of the result array is the energy. -/
theorem result_apply (c : Dev nD) (y : S1x1.Idx) : result m c y = energyOf m c :=
  (outsAt_eq m c y tLast.val tLast.isLt).trans (blocks_sum m c)

/-- The array the host tail reads is the result array as the region leaves it. -/
theorem tail_arr (c : Dev nD) :
    Pipeline.withArrays (cfgs 0).spec c (V0 m c) (fun w => (dats m 0 c).arrAt w (cfgs 0).N) (Proc.devRef .tc main_v63) = result m c :=
  (Pipeline.withArrays_arr spec0 launch0.win.arr_inj c _ _ 8).trans (final_o m c)

/-- The three host lines after the call reshape the 1×1 result to a scalar and multiply it by the scale constant. -/
theorem tail_eq (c : Dev nD) :
    Pipeline.afterTail₀ cfgs (dats m) 0 (V0 m) [hostOps1] c main_v65
      = mulf (constant (F := Ideal) S_ .f32 0xC159B0E2#32) (fun _ => energyOf m c) := by
  unfold Pipeline.afterTail₀
  show StableHlo.after hostOps1 _ (Proc.devRef .tc main_v65) = _
  after_results
  refine congrArg (mulf _) (funext fun i => ?_)
  show Pipeline.withArrays (cfgs 0).spec c (V0 m c) (fun w => (dats m 0 c).arrAt w (cfgs 0).N) (Proc.devRef .tc main_v63) (Shape.reshapeEquiv shapeCasts_S1x1_S_ i) = _
  rw [tail_arr m c]
  exact result_apply m c _

/-- The run, read: the result at the scale constant times the energy, the arguments unchanged. -/
theorem run : θ_run (defs (F := Ideal)) (onTc (τ := τ) (main (F := Ideal))) ⟨m, fun _ => 0, ρ⟩ fun r => ∀ c : Dev nD,
      r.2.mem ((c.tc : Thread nD τ).loc main_v65) = mulf (constant (F := Ideal) S_ .f32 0xC159B0E2#32) (fun _ => energyOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).2 main_v65 (Pipeline.mem_restRefs_of main_v65 (by decide) (by decide))).trans (tail_eq m c),
    (((h c).2 main_arg0 (Pipeline.mem_restRefs_of main_arg0 (by decide) (by decide))).trans (W_main_arg0 m (dats m) c)),
    (((h c).2 main_arg1 (Pipeline.mem_restRefs_of main_arg1 (by decide) (by decide))).trans (W_main_arg1 m (dats m) c)),
    (((h c).2 main_arg2 (Pipeline.mem_restRefs_of main_arg2 (by decide) (by decide))).trans (W_main_arg2 m (dats m) c)),
    (((h c).2 main_arg3 (Pipeline.mem_restRefs_of main_arg3 (by decide) (by decide))).trans (W_main_arg3 m (dats m) c)),
    (((h c).2 main_arg4 (Pipeline.mem_restRefs_of main_arg4 (by decide) (by decide))).trans (W_main_arg4 m (dats m) c)),
    (((h c).2 main_arg5 (Pipeline.mem_restRefs_of main_arg5 (by decide) (by decide))).trans (W_main_arg5 m (dats m) c)),
    (((h c).2 main_arg6 (Pipeline.mem_restRefs_of main_arg6 (by decide) (by decide))).trans (W_main_arg6 m (dats m) c))⟩) (run_main m ρ)

end Cert.KernelIdeal.Val

end
-- ==== Proof.RefValue.lean ====
/-
  The reference program's result as the energy: its last line multiplies the scale constant by the sum, over all
  100000 × 64 (atom, slot) pairs, of the pair term of the arguments' numbers — the neighbour's coordinates read from
  the coordinate table's row at the clamped index, its c6, α and rr as gathers of the argument arrays.
-/
import proofs.«147298_j47991964566172_1_alg».proof.Proof.Gen.ReferenceIdeal.Read
import proofs.«147298_j47991964566172_1_alg».proof.Proof.EnergySpec
import Idealize.ShloMosaic.Lib.ValueLayout
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.ShloMosaic.ValueIdx Idealize.SL.Sem

/-- rr of every atom: the table r4r2 at the atom's number (negative numbers wrapped once, then clamped by the gather). -/
def rrOf (a3 : FVec Ideal S119 .f32) (a5 : IVec S100000 32) : FVec Ideal S100000 .f32 :=
  Host.gather gather_S119_S100000x1_S100000_n_0_n_n_0_1_1 a3 (broadcastInDim S100000x1 ![0] bcast_S100000_S100000x1_0 (select (cmpi .slt a5 (broadcastInDim S100000 ![] bcast_S_S100000 (constantI S_ 32 0#32))) (addi a5 (broadcastInDim S100000 ![] bcast_S_S100000 (constantI S_ 32 119#32))) a5))

/-- The neighbour index words, negative ones wrapped once, as the gathers' start indices. -/
def nidxOf (a4 : IVec S100000x64 32) : IVec S100000x64x1 32 :=
  broadcastInDim S100000x64x1 ![0, 1] bcast_S100000x64_S100000x64x1_0_1 (select (cmpi .slt a4 (broadcastInDim S100000x64 ![] bcast_S_S100000x64 (constantI S_ 32 0#32))) (addi a4 (broadcastInDim S100000x64 ![] bcast_S_S100000x64 (constantI S_ 32 100000#32))) a4)

/-- A per-atom array gathered at the neighbour indices. -/
def gatherOf (x : FVec Ideal S100000 .f32) (nidx : IVec S100000x64x1 32) : FVec Ideal S100000x64 .f32 :=
  Host.gather gather_S100000_S100000x64x1_S100000x64_n_0_n_n_0_2_1 x nidx

/-- The coordinate-row gather read at (n, l, k): coordinate k of the table's row at the slot's start index,
    read signed and clamped into the table. Axis 0 of the table is collapsed and is the one the start index names;
    axis 1 is the result's offset axis 2. -/
theorem gather_row_apply {α : Type} (x : S100000x3.Idx → α) (idx : IVec S100000x64x1 32)
    (n : Fin 100000) (l : Fin 64) (k : Fin 3) :
    Host.gather gather_S100000x3_S100000x64x1_S100000x64x3_2_0_n_n_0_2_13 x idx (ix3 n l k)
      = x (ix2 (Cert.Energy.row (idx (ix3 n l 0))) k) := by
  unfold Host.gather
  congr 1
  funext a
  refine Fin.ext ?_
  match a with
  | ⟨0, _⟩ =>
    show gather_S100000x3_S100000x64x1_S100000x64x3_2_0_n_n_0_2_13.start (ix3 n l k) idx 0
        + gather_S100000x3_S100000x64x1_S100000x64x3_2_0_n_n_0_2_13.batchCoord (ix3 n l k) 0
        + gather_S100000x3_S100000x64x1_S100000x64x3_2_0_n_n_0_2_13.offCoord (ix3 n l k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x3_S100000x64x1_S100000x64x3_2_0_n_n_0_2_13.startIndexMap from
      List.mem_singleton.mpr rfl)]
    have hsi : gather_S100000x3_S100000x64x1_S100000x64x3_2_0_n_n_0_2_13.siIdx (ix3 n l k)
        ⟨List.idxOf (0 : Fin 2) gather_S100000x3_S100000x64x1_S100000x64x3_2_0_n_n_0_2_13.startIndexMap,
          List.idxOf_lt_length_iff.2 (List.mem_singleton.mpr rfl)⟩ = ix3 n l 0 := by
      funext b; refine Fin.ext ?_
      match b with
      | ⟨0, _⟩ => rfl
      | ⟨1, _⟩ => rfl
      | ⟨2, _⟩ => rfl
    rw [hsi]
    rfl
  | ⟨1, _⟩ =>
    show gather_S100000x3_S100000x64x1_S100000x64x3_2_0_n_n_0_2_13.start (ix3 n l k) idx 1
        + gather_S100000x3_S100000x64x1_S100000x64x3_2_0_n_n_0_2_13.batchCoord (ix3 n l k) 1
        + gather_S100000x3_S100000x64x1_S100000x64x3_2_0_n_n_0_2_13.offCoord (ix3 n l k) 1 = k.val
    rw [GatherDims.batchCoord_eq_zero _ _ _ List.not_mem_nil]
    have hst : gather_S100000x3_S100000x64x1_S100000x64x3_2_0_n_n_0_2_13.start (ix3 n l k) idx 1 = 0 := by
      unfold GatherDims.start
      rw [dif_neg (show ¬ (1 : Fin 2) ∈ gather_S100000x3_S100000x64x1_S100000x64x3_2_0_n_n_0_2_13.startIndexMap by decide)]
    rw [hst]
    simp only [Nat.add_zero, Nat.zero_add]
    unfold GatherDims.offCoord
    rw [dif_pos (show (1 : Fin 2) ∈ gather_S100000x3_S100000x64x1_S100000x64x3_2_0_n_n_0_2_13.sKept by decide)]
    rfl

open Cert.ReferenceIdeal.Read Cert.Energy

section Stages

variable (x0 : FVec Ideal S100000x3 .f32) (x1 x2 : FVec Ideal S100000 .f32) (x3 : FVec Ideal S119 .f32)
  (x4 : IVec S100000x64 32) (x5 : IVec S100000 32) (x6 : IVec S100000x64 1) (n : Fin 100000) (l : Fin 64)

/-! The four copies of the start indices are the one array of normalized neighbour index words; the three flat
    gathers and the table look-up are kept whole. -/

theorem v5_eq : val_main_v5 (F := Ideal) x4 = nidxOf x4 := rfl
theorem v22_eq : val_main_v22 (F := Ideal) x4 = nidxOf x4 := rfl
theorem v31_eq : val_main_v31 (F := Ideal) x4 = nidxOf x4 := rfl
theorem v63_eq : val_main_v63 (F := Ideal) x4 = nidxOf x4 := rfl
theorem v54_eq : val_main_v54 (F := Ideal) x3 x5 = rrOf x3 x5 := rfl
theorem v23_eq : val_main_v23 (F := Ideal) x1 x4 = gatherOf x1 (nidxOf x4) := rfl
theorem v32_eq : val_main_v32 (F := Ideal) x2 x4 = gatherOf x2 (nidxOf x4) := rfl
theorem v64_eq : val_main_v64 (F := Ideal) x3 x4 x5 = gatherOf (rrOf x3 x5) (nidxOf x4) := rfl

/-! The difference of the two rows, coordinate by coordinate. -/

/-- The neighbour's coordinate k. -/
theorem v6_ix (k : Fin 3) :
    val_main_v6 (F := Ideal) x0 x4 (ix3 n l k) = x0 (ix2 (row (nidxOf x4 (ix3 n l 0))) k) := by
  unfold val_main_v6
  rw [v5_eq]
  exact gather_row_apply x0 (nidxOf x4) n l k

/-- The atom's own coordinate k, broadcast over the slots. -/
theorem v8_ix (k : Fin 3) : val_main_v8 (F := Ideal) x0 (ix3 n l k) = x0 (ix2 n k) :=
  (val_main_v8_apply (F := Ideal) x0 _).trans ((val_main_v7_apply (F := Ideal) x0 _).trans (congrArg x0 (funext fun a => by
    match a with
    | ⟨0, _⟩ => rfl
    | ⟨1, _⟩ => rfl)))

/-- One squared coordinate difference. -/
theorem v10_ix (k : Fin 3) :
    val_main_v10 (F := Ideal) x0 x4 (idx_main_v11 (ix2 n l) k)
      = (x0 (ix2 (row (nidxOf x4 (ix3 n l 0))) k) - x0 (ix2 n k)) * (x0 (ix2 (row (nidxOf x4 (ix3 n l 0))) k) - x0 (ix2 n k)) := by
  have e : idx_main_v11 (ix2 n l) k = ix3 n l k := by
    funext a
    match a with
    | ⟨0, _⟩ => rfl
    | ⟨1, _⟩ => rfl
    | ⟨2, _⟩ => rfl
  rw [e, val_main_v10_apply, val_main_v9_apply, v6_ix, v8_ix]
  rfl

/-- The squared distance: the zero word plus the three squares in order. -/
theorem v11_ix :
    val_main_v11 (F := Ideal) x0 x4 (ix2 n l)
      = (x0 (ix2 (row (nidxOf x4 (ix3 n l 0))) 0) - x0 (ix2 n 0)) * (x0 (ix2 (row (nidxOf x4 (ix3 n l 0))) 0) - x0 (ix2 n 0))
        + (x0 (ix2 (row (nidxOf x4 (ix3 n l 0))) 1) - x0 (ix2 n 1)) * (x0 (ix2 (row (nidxOf x4 (ix3 n l 0))) 1) - x0 (ix2 n 1))
        + (x0 (ix2 (row (nidxOf x4 (ix3 n l 0))) 2) - x0 (ix2 n 2)) * (x0 (ix2 (row (nidxOf x4 (ix3 n l 0))) 2) - x0 (ix2 n 2)) := by
  rw [val_main_v11_apply, val_main_cst_apply, Ideal.ofBits_def, Ideal.ofBits_zero_f32, zero_add, Fin.sum_univ_three,
    v10_ix, v10_ix, v10_ix]

/-- The masked squared distance. -/
theorem v12_ix :
    val_main_v12 (F := Ideal) x0 x4 x6 (ix2 n l)
      = Scalar.select (x6 (ix2 n l)) wOne
          ((x0 (ix2 (row (nidxOf x4 (ix3 n l 0))) 0) - x0 (ix2 n 0)) * (x0 (ix2 (row (nidxOf x4 (ix3 n l 0))) 0) - x0 (ix2 n 0))
          + (x0 (ix2 (row (nidxOf x4 (ix3 n l 0))) 1) - x0 (ix2 n 1)) * (x0 (ix2 (row (nidxOf x4 (ix3 n l 0))) 1) - x0 (ix2 n 1))
          + (x0 (ix2 (row (nidxOf x4 (ix3 n l 0))) 2) - x0 (ix2 n 2)) * (x0 (ix2 (row (nidxOf x4 (ix3 n l 0))) 2) - x0 (ix2 n 2))) := by
  rw [val_main_v12_apply, val_main_call0_v1_apply, val_main_call0_v0_apply, val_main_cst_1_apply, v11_ix]
  rfl

end Stages

section Stages2

variable (x0 : FVec Ideal S100000x3 .f32) (x1 x2 : FVec Ideal S100000 .f32) (x3 : FVec Ideal S119 .f32)
  (x4 : IVec S100000x64 32) (x5 : IVec S100000 32) (x6 : IVec S100000x64 1) (n : Fin 100000) (l : Fin 64)

/-! The per-atom numbers, broadcast over the slots, read at (n, l). -/

/-- c6 of the atom. -/
theorem v38_ix : val_main_v38 (F := Ideal) x1 (ix2 n l) = x1 (ix1 n) := by
  rw [val_main_v38_apply, val_main_v16_apply]
  exact congrArg x1 (funext fun b => by match b with | ⟨0, _⟩ => rfl)

/-- Twice c6 of the atom. -/
theorem v36_ix : val_main_v36 (F := Ideal) x1 (ix2 n l) = wTwo * x1 (ix1 n) := by
  rw [val_main_v36_apply, val_main_v35_apply, val_main_v34_apply, val_main_cst_9_apply, val_main_v16_apply]
  exact congrArg (fun t => wTwo * x1 t) (funext fun b => by match b with | ⟨0, _⟩ => rfl)

/-- The atom's α, kept above ε. -/
theorem v40_ix : val_main_v40 (F := Ideal) x2 (ix2 n l) = max (x2 (ix1 n)) wEps := by
  rw [val_main_v40_apply, val_main_v25_apply, val_main_v24_apply, val_main_call1_v1_apply, val_main_call1_v0_apply,
    val_main_cst_5_apply, Ideal.maximumf_def, Ideal.ofBits_def, max_comm]
  exact congrArg (fun t => max (x2 t) wEps) (funext fun b => by match b with | ⟨0, _⟩ => rfl)

theorem v42_ix : val_main_v42 (F := Ideal) x2 (ix2 n l) = max (x2 (ix1 n)) wEps := by
  rw [val_main_v42_apply, val_main_v25_apply, val_main_v24_apply, val_main_call1_v1_apply, val_main_call1_v0_apply,
    val_main_cst_5_apply, Ideal.maximumf_def, Ideal.ofBits_def, max_comm]
  exact congrArg (fun t => max (x2 t) wEps) (funext fun b => by match b with | ⟨0, _⟩ => rfl)

/-- Three times rr of the atom. -/
theorem v65_ix : val_main_v65 (F := Ideal) x3 x5 (ix2 n l) = wThree * rrOf x3 x5 (ix1 n) := by
  rw [val_main_v65_apply, val_main_v57_apply, val_main_v56_apply, val_main_cst_13_apply, val_main_v55_apply, v54_eq]
  exact congrArg (fun t => wThree * rrOf x3 x5 t) (funext fun b => by match b with | ⟨0, _⟩ => rfl)

/-- The neighbour's α, kept above ε. -/
theorem v33_ix : val_main_v33 (F := Ideal) x2 x4 (ix2 n l) = max (gatherOf x2 (nidxOf x4) (ix2 n l)) wEps := by
  rw [val_main_v33_apply, val_main_call2_v1_apply, val_main_call2_v0_apply, val_main_cst_8_apply, v32_eq,
    Ideal.maximumf_def, Ideal.ofBits_def, max_comm]

/-- c6ij. -/
theorem v47_ix :
    val_main_v47 (F := Ideal) x1 x2 x4 (ix2 n l)
      = Ideal.div (wTwo * x1 (ix1 n) * gatherOf x1 (nidxOf x4) (ix2 n l))
          (max (Ideal.div (x1 (ix1 n) * max (gatherOf x2 (nidxOf x4) (ix2 n l)) wEps) (max (x2 (ix1 n)) wEps)
              + Ideal.div (gatherOf x1 (nidxOf x4) (ix2 n l) * max (x2 (ix1 n)) wEps) (max (gatherOf x2 (nidxOf x4) (ix2 n l)) wEps))
            wEps) := by
  rw [val_main_v47_apply, val_main_v37_apply, val_main_v46_apply, val_main_call3_v1_apply, val_main_call3_v0_apply,
    val_main_cst_10_apply, val_main_v45_apply, val_main_v41_apply, val_main_v44_apply, val_main_v39_apply,
    val_main_v43_apply, v36_ix, v38_ix, v40_ix, v42_ix, v33_ix, v23_eq, Ideal.maximumf_def, Ideal.ofBits_def, max_comm]
  rfl

/-- rrij. -/
theorem v66_ix :
    val_main_v66 (F := Ideal) x3 x4 x5 (ix2 n l)
      = wThree * rrOf x3 x5 (ix1 n) * gatherOf (rrOf x3 x5) (nidxOf x4) (ix2 n l) := by
  rw [val_main_v66_apply, v65_ix, v64_eq]
  rfl

/-- r0. -/
theorem v71_ix :
    val_main_v71 (F := Ideal) x3 x4 x5 (ix2 n l)
      = wA1 * Ideal.sqrt (wThree * rrOf x3 x5 (ix1 n) * gatherOf (rrOf x3 x5) (nidxOf x4) (ix2 n l)) + wA2 := by
  rw [val_main_v71_apply, val_main_v69_apply, val_main_v68_apply, val_main_cst_16_apply, val_main_v67_apply, v66_ix,
    val_main_v70_apply, val_main_cst_17_apply]
  rfl

/-- d. -/
theorem v15_ix :
    val_main_v15 (F := Ideal) x0 x4 x6 (ix2 n l)
      = Ideal.sqrt (val_main_v12 (F := Ideal) x0 x4 x6 (ix2 n l)) * wAng := by
  rw [val_main_v15_apply, val_main_v13_apply, val_main_v14_apply, val_main_cst_2_apply]
  rfl

end Stages2

section Assembly

variable (x0 : FVec Ideal S100000x3 .f32) (x1 x2 : FVec Ideal S100000 .f32) (x3 : FVec Ideal S119 .f32)
  (x4 : IVec S100000x64 32) (x5 : IVec S100000 32) (x6 : IVec S100000x64 1) (n : Fin 100000) (l : Fin 64)

/-- The sixth power as the reference multiplies it, x²·(x²·x²), is the energy's (x²·x²)·x². -/
theorem sixth (a : EReal) : a * a * (a * a * (a * a)) = a * a * (a * a) * (a * a) := mul_comm _ _

/-- The reference's pair term at (n, l) is the energy's. -/
theorem v92_ix :
    val_main_v92 (F := Ideal) x0 x1 x2 x3 x4 x5 x6 (ix2 n l)
      = pairAt x0 x1 x2 (rrOf x3 x5) (nidxOf x4) (gatherOf x1 (nidxOf x4)) (gatherOf x2 (nidxOf x4))
          (gatherOf (rrOf x3 x5) (nidxOf x4)) x6 n l := by
  simp only [val_main_v92_apply, val_main_v91_apply, val_main_v86_apply, val_main_v90_apply, val_main_v85_apply,
    val_main_cst_18_apply, val_main_v84_apply, val_main_v89_apply, val_main_v88_apply, val_main_v87_apply,
    val_main_cst_19_apply, val_main_v74_apply, val_main_v73_apply, val_main_v72_apply, val_main_v77_apply,
    val_main_v76_apply, val_main_v75_apply, val_main_v80_apply, val_main_v79_apply, val_main_v78_apply,
    val_main_v83_apply, val_main_v82_apply, val_main_v81_apply, v47_ix, v66_ix, v71_ix, v15_ix, v12_ix,
    Ideal.mulf_def, Ideal.addf_def, Ideal.hostDivf_def, Ideal.ofBits_def, pairAt, pair]
  rw [sixth, sixth]

end Assembly

/-- The reference's result buffer is the scale constant times the energy of the arguments. -/
theorem res_eq (m : (ℓ : Loc nD τ sig) → Buf (Elt Ideal) ℓ) (c : Dev nD) :
    Cert.ReferenceIdeal.Value.res_main_v94 (F := Ideal) m c
      = mulf (constant (F := Ideal) S_ .f32 0xC159B0E2#32) (fun _ => Cert.Energy.energy
          (m ((c.tc : Thread nD τ).loc main_arg0)) (m ((c.tc : Thread nD τ).loc main_arg1)) (m ((c.tc : Thread nD τ).loc main_arg2))
          (rrOf (m ((c.tc : Thread nD τ).loc main_arg3)) (m ((c.tc : Thread nD τ).loc main_arg5)))
          (nidxOf (m ((c.tc : Thread nD τ).loc main_arg4)))
          (gatherOf (m ((c.tc : Thread nD τ).loc main_arg1)) (nidxOf (m ((c.tc : Thread nD τ).loc main_arg4))))
          (gatherOf (m ((c.tc : Thread nD τ).loc main_arg2)) (nidxOf (m ((c.tc : Thread nD τ).loc main_arg4))))
          (gatherOf (rrOf (m ((c.tc : Thread nD τ).loc main_arg3)) (m ((c.tc : Thread nD τ).loc main_arg5))) (nidxOf (m ((c.tc : Thread nD τ).loc main_arg4))))
          (m ((c.tc : Thread nD τ).loc main_arg6))) := by
  rw [val_main_v94_eq]
  funext i
  rw [val_main_v94_apply, val_main_v93_apply, val_main_cst_20_apply, val_main_cst_21_apply, Ideal.ofBits_def,
    Ideal.ofBits_def, Ideal.ofBits_zero_f32, zero_add, ValueIdx.sum_idx2]
  simp only [v92_ix]
  rfl

end Cert.ReferenceIdeal.RefValue

end
-- ==== Proof.lean ====
/-
  The certificate's five claims, assembled.
  Both programs compute the scale constant −13.6056843 times the sum, over all 100000 × 64 (atom, slot) pairs, of one pair
  term c6ij · (1 / (d⁶ + r0⁶) + 2·rrij / (d⁸ + r0⁸)) of the two atoms' numbers (Proof/EnergySpec.lean). The reference
  adds the pair terms in one sum over the whole 100000 × 64 array; the kernel walks a grid of 50 points, at each point adds
  the pair terms of one block of 2000 atoms (row by row, slot by slot) into a 1 × 1 accumulator, and writes the accumulator
  back once, after the last point. At the ideal instance the floats are extended reals, where + and · are commutative and
  associative, so the 50 block sums add up to the one sum and the two results are the same number.
  The frames: each kernel program is host lines, then one pipelined region over the 50-point grid, then host lines, and
  leaves its seven argument arrays as it found them; the reference is host lines only, and its frame is its run with the
  result forgotten. The idealized kernel is the kernel's own text read at the ideal instance (no rewrite to justify).
-/
import proofs.«147298_j47991964566172_1_alg».proof.Defs
import proofs.«147298_j47991964566172_1_alg».proof.Proof.Gen.Kernel
import proofs.«147298_j47991964566172_1_alg».proof.Proof.Gen.Kernel.Skeleton
import proofs.«147298_j47991964566172_1_alg».proof.Proof.Gen.Kernel.Launch
import proofs.«147298_j47991964566172_1_alg».proof.Proof.Gen.Kernel.Points
import proofs.«147298_j47991964566172_1_alg».proof.Proof.Gen.KernelIdeal
import proofs.«147298_j47991964566172_1_alg».proof.Proof.Gen.KernelIdeal.Skeleton
import proofs.«147298_j47991964566172_1_alg».proof.Proof.Gen.KernelIdeal.Launch
import proofs.«147298_j47991964566172_1_alg».proof.Proof.Gen.KernelIdeal.Points
import proofs.«147298_j47991964566172_1_alg».proof.Proof.Gen.ReferenceIdeal
import proofs.«147298_j47991964566172_1_alg».proof.Proof.Gen.Pre_finite_inputs
import proofs.«147298_j47991964566172_1_alg».proof.Proof.Gen.ReferenceIdeal.Run
import proofs.«147298_j47991964566172_1_alg».proof.Proof.Gen.ReferenceIdeal.Read
import Idealize.ShloMosaic.Adequacy
import Idealize.ShloMosaic.Init
import proofs.«147298_j47991964566172_1_alg».proof.Proof.KernelFrame
import proofs.«147298_j47991964566172_1_alg».proof.Proof.KernelIdealFrame
import proofs.«147298_j47991964566172_1_alg».proof.Proof.KernelIdealValue
import proofs.«147298_j47991964566172_1_alg».proof.Proof.RefValue

noncomputable section

namespace Cert.Proof

open Idealize.ShloMosaic Idealize.SL.Sem Cert.Kernel

/-! ## The two programs' host functions are one function

Each program's text names its own copy of the shapes and of the gathers' dimension numbers; the copies are the same
literal shapes and the same records, so rr of every atom, the normalized neighbour indices and a gather at them are
the same arrays whichever program's names spell them. -/

theorem rrOf_eq (a3 : FVec Ideal Cert.ReferenceIdeal.S119 .f32) (a5 : IVec Cert.ReferenceIdeal.S100000 32) :
    Cert.ReferenceIdeal.RefValue.rrOf a3 a5 = Cert.KernelIdeal.HostV.rrOf a3 a5 := rfl

theorem nidxOf_eq (a4 : IVec Cert.ReferenceIdeal.S100000x64 32) :
    Cert.ReferenceIdeal.RefValue.nidxOf a4 = Cert.KernelIdeal.HostV.nidxOf a4 := rfl

theorem gatherOf_eq (x : FVec Ideal Cert.ReferenceIdeal.S100000 .f32) (nidx : IVec Cert.ReferenceIdeal.S100000x64x1 32) :
    Cert.ReferenceIdeal.RefValue.gatherOf x nidx = Cert.KernelIdeal.HostV.gatherOf x nidx := rfl

/-! ## The claims -/

/-- The word-level kernel runs and leaves its arguments unchanged. -/
theorem frame_k : Cert.frame_Kernel := fun m ρ _ => Cert.Kernel.Hand.frame m ρ

/-- So does the kernel read at the ideal instance. -/
theorem frame_ki : Cert.frame_KernelIdeal := fun m ρ _ => Cert.KernelIdeal.Hand.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text: nothing was rewritten. -/
theorem preserves : Cert.preserves_Kernel_KernelIdeal := trivial

/-- At the ideal instance the kernel's result is the scale constant times the energy of its arguments (the 50 block
    sums added up), the reference's is the scale constant times the energy of its arguments (the one sum), and the
    arguments agree. -/
theorem algebraic : Cert.algebraic_KernelIdeal_ReferenceIdeal := by
  intro m ρ m' ρ' _ hagree
  refine ⟨fun c => (mulf (constant (F := Ideal) Cert.KernelIdeal.S_ .f32 0xC159B0E2#32)
      (fun _ => Cert.KernelIdeal.Val.energyOf m c) : FVec Ideal Cert.KernelIdeal.S_ .f32),
    Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.RefValue.res_eq m' c, h0, h1, h2, h3, h4, h5, h6, rrOf_eq, nidxOf_eq, gatherOf_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
